-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2x4192256 : Shape := ⟨2, ![2, 4192256]⟩
abbrev S6x32 : Shape := ⟨2, ![6, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S2x4192256 : S_.BroadcastsInDim S2x4192256 (![] : Fin 0 → Fin S2x4192256.rank)
  reducesTo_S2x4192256_S_d0_1 : S2x4192256.ReducesTo [0, 1] S_

variable [Facts]

def fn_part2 {F : FTy → Type} [FloatOps F] (main_arg1 : IVec S2x4192256 32) (main_arg8 : FVec F S32x3 .f32) (main_arg9 : FVec F S3 .f32) (main_v33 : IVec S_ 1) : IVec S_ 1 :=
  let main_v34 : FVec F S32x3 .f32 := Host.absf main_arg8
  let main_cst_12 : FVec F S_ .f32 := constant S_ .f32 0x7F800000#32
  let main_v35 : FVec F S32x3 .f32 := broadcastInDim S32x3 ![] bcast_S_S32x3 main_cst_12
  let main_v36 : IVec S32x3 1 := cmpf .olt main_v34 main_v35
  let main_c_13 : IVec S_ 1 := constantI S_ 1 1#1
  let main_v37 : IVec S_ 1 := (fun x v => Host.reduce IntOp.andi x v reducesTo_S32x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_c_16 : IVec S_ 32 := constantI S_ 32 0#32
  let main_v44 : IVec S2x4192256 32 := broadcastInDim S2x4192256 ![] bcast_S_S2x4192256 main_c_16
  let main_v45 : IVec S2x4192256 1 := cmpi .sge main_arg1 main_v44
  let main_c_17 : IVec S_ 32 := constantI S_ 32 2048#32
  let main_v46 : IVec S2x4192256 32 := broadcastInDim S2x4192256 ![] bcast_S_S2x4192256 main_c_17
  let main_v47 : IVec S2x4192256 1 := cmpi .slt main_arg1 main_v46
  let main_v48 : IVec S2x4192256 1 := andi main_v45 main_v47
  let main_c_18 : IVec S_ 1 := constantI S_ 1 1#1
  let main_v49 : IVec S_ 1 := (fun x v => Host.reduce IntOp.andi x v reducesTo_S2x4192256_S_d0_1 h_S_) main_v48 main_c_18
  let main_v50 : IVec S_ 1 := andi main_v43 main_v49
  main_v50

def fn_part1 {F : FTy → Type} [FloatOps F] (main_arg1 : IVec S2x4192256 32) (main_arg5 : FVec F S32 .f32) (main_arg6 : FVec F S32x32 .f32) (main_arg7 : FVec F S32 .f32) (main_arg8 : FVec F S32x3 .f32) (main_arg9 : FVec F S3 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_v33

def fn {F : FTy → Type} [FloatOps F] (main_arg0 : FVec F S2048x3 .f32) (main_arg1 : IVec S2x4192256 32) (main_arg2 : FVec F S6x32 .f32) (main_arg3 : FVec F S32 .f32) (main_arg4 : FVec F S32x32 .f32) (main_arg5 : FVec F S32 .f32) (main_arg6 : FVec F S32x32 .f32) (main_arg7 : FVec F S32 .f32) (main_arg8 : FVec F S32x3 .f32) (main_arg9 : FVec F S3 .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S6x32 .f32 := Host.absf main_arg2
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_arg8 main_arg9 main_v13 main_v16
-- ==== Kernel.lean ====
abbrev S2048x3 : Shape := ⟨2, ![2048, 3]⟩
abbrev S2x4192256 : Shape := ⟨2, ![2, 4192256]⟩
abbrev S6x32 : Shape := ⟨2, ![6, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S3x32 : Shape := ⟨2, ![3, 32]⟩
abbrev S2x512 : Shape := ⟨2, ![2, 512]⟩
abbrev S2048x1 : Shape := ⟨2, ![2048, 1]⟩
abbrev S1x512 : Shape := ⟨2, ![1, 512]⟩
abbrev S512 : Shape := ⟨1, ![512]⟩
abbrev S512x2048 : Shape := ⟨2, ![512, 2048]⟩
abbrev S512x1 : Shape := ⟨2, ![512, 1]⟩
abbrev S512x3 : Shape := ⟨2, ![512, 3]⟩
abbrev S512x32 : Shape := ⟨2, ![512, 32]⟩
abbrev S1x32 : Shape := ⟨2, ![1, 32]⟩
abbrev S1x3 : Shape := ⟨2, ![1, 3]⟩

abbrev nBuf : Space → Nat
  | .hbm => 13
  | .vmem => 15
  | .smem => 0
  | _ => 0

abbrev bufTy : (tb : Table) → Fin (tcTables nBuf tb) → BufTy
  | .hbm, ⟨0, _⟩ => ⟨S2048x3, .f32⟩
  | .hbm, ⟨1, _⟩ => ⟨S2x4192256, .i32⟩
  | .hbm, ⟨2, _⟩ => ⟨S6x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x3, .f32⟩
  | .hbm, ⟨9, _⟩ => ⟨S3, .f32⟩
  | .hbm, ⟨10, _⟩ => ⟨S3x32, .f32⟩
  | .hbm, ⟨11, _⟩ => ⟨S3x32, .f32⟩
  | .hbm, ⟨12, _⟩ => ⟨S2048x3, .f32⟩
  | .local _ .vmem, ⟨0, _⟩ => ⟨S2x512, .i32⟩
  | .local _ .vmem, ⟨1, _⟩ => ⟨S2x512, .i32⟩
  | .local _ .vmem, ⟨2, _⟩ => ⟨S2048x3, .f32⟩
  | .local _ .vmem, ⟨3, _⟩ => ⟨S3x32, .f32⟩
  | .local _ .vmem, ⟨4, _⟩ => ⟨S3x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S32x3, .f32⟩
  | .local _ .vmem, ⟨11, _⟩ => ⟨S3, .f32⟩
  | .local _ .vmem, ⟨12, _⟩ => ⟨S2048x3, .f32⟩
  | .local _ .vmem, ⟨13, _⟩ => ⟨S2048x3, .f32⟩
  | .local _ .vmem, ⟨14, _⟩ => ⟨S2048x1, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![8188], ![false]⟩

def k0_cond2 (i : grid0.Coords) : BitVec 1 :=
  let arg0 : BitVec 32 := BitVec.ofNat 32 (i 0).val
  let c8187_i32 : BitVec 32 := 8187#32
  let v70 : BitVec 1 := Scalar.cmpi .eq arg0 c8187_i32
  let v71 : BitVec 32 := Scalar.extui v70
  let c0_i32_39 : BitVec 32 := 0#32
  let v72 : BitVec 1 := Scalar.cmpi .ne v71 c0_i32_39
  v72

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  slices_S6x32_S3x32_0_0 : S6x32.Slices ![0, 0] S3x32
  slices_S6x32_S3x32_3_0 : S6x32.Slices ![3, 0] S3x32
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2x512_S1x512_0_0 : ∀ a, (![0, 0] : Fin 2 → Nat) a + S1x512.size a ≤ S2x512.size a
  h_S1x512 : 0 < S1x512.numel
  shapeCasts_S1x512_S512 : S1x512.ShapeCasts S512
  inb_S2x512_S1x512_1_0 : ∀ a, (![1, 0] : Fin 2 → Nat) a + S1x512.size a ≤ S2x512.size a
  iota_S512x2048_d1_w32 : S512x2048.Iotas .tc 32 [1]
  shapeCasts_S512_S512x1 : S512.ShapeCasts S512x1
  broadcasts_S512x1_S512x2048 : S512x1.Broadcasts S512x2048
  natLt_1_32 : 1 < 32
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  inb_S32x3_S32x3_0_0 : ∀ a, (![0, 0] : Fin 2 → Nat) a + S32x3.size a ≤ S32x3.size a
  h_S32x3 : 0 < S32x3.numel
  inb_S3_S3_0 : ∀ a, (![0] : Fin 1 → Nat) a + S3.size a ≤ S3.size a
  h_S3 : 0 < S3.numel
  shapeCasts_S32_S1x32 : S32.ShapeCasts S1x32
  broadcasts_S1x32_S512x32 : S1x32.Broadcasts S512x32
  shapeCasts_S3_S1x3 : S3.ShapeCasts S1x3
  broadcasts_S1x3_S512x3 : S1x3.Broadcasts S512x3
  broadcasts_S2048x1_S2048x3 : S2048x1.Broadcasts S2048x3
  dot_S512x2048_S2048x3_S512x3_1_0_0_1_n_n_wf : DotDims.WF S512x2048 S2048x3 S512x3 [1] [0] [0] [1] [] []
  dot_S512x3_S3x32_S512x32_1_0_0_1_n_n_wf : DotDims.WF S512x3 S3x32 S512x32 [1] [0] [0] [1] [] []
  dot_S512x32_S32x32_S512x32_1_0_0_1_n_n_wf : DotDims.WF S512x32 S32x32 S512x32 [1] [0] [0] [1] [] []
  dot_S512x32_S32x3_S512x3_1_0_0_1_n_n_wf : DotDims.WF S512x32 S32x3 S512x3 [1] [0] [0] [1] [] []
  dot_S512x2048_S512x3_S2048x3_0_0_1_1_n_n_wf : DotDims.WF S512x2048 S512x3 S2048x3 [0] [0] [1] [1] [] []
  dot_S512x2048_S512x1_S2048x1_0_0_1_1_n_n_wf : DotDims.WF S512x2048 S512x1 S2048x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512.size a ≤ S2x4192256.size a
  hwx0_0 : ∀ i : grid0.Coords, EltTy.bits .i32 = 32 ∨ (Rect.block (s := S2x4192256) S2x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S2048x3.size a
  hwx0_1 : ∀ i : grid0.Coords, EltTy.bits .f32 = 32 ∨ (Rect.block (s := S2048x3) S2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x3.size a ≤ S32x3.size a
  hwx0_9 : ∀ i : grid0.Coords, EltTy.bits .f32 = 32 ∨ (Rect.block (s := S32x3) S32x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3.size a ≤ S3.size a
  hwx0_10 : ∀ i : grid0.Coords, EltTy.bits .f32 = 32 ∨ (Rect.block (s := S3) S3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x3.size a ≤ S2048x3.size a
  hwx0_11 : ∀ i : grid0.Coords, EltTy.bits .f32 = 32 ∨ (Rect.block (s := S2048x3) S2048x3.size (cc0_transform_11 i) (hinb0_11 i)).WholeWords (EltTy.packing .f32)

variable [Facts₀]

def dot_S512x2048_S2048x3_S512x3_1_0_0_1_n_n : DotDims S512x2048 S2048x3 S512x3 where
  lhsContracting := [1]
  rhsContracting := [0]
  lhsNonContracting := [0]
  rhsNonContracting := [1]
  lhsBatch := []
  rhsBatch := []
  wf := dot_S512x2048_S2048x3_S512x3_1_0_0_1_n_n_wf
def dot_S512x3_S3x32_S512x32_1_0_0_1_n_n : DotDims S512x3 S3x32 S512x32 where
  lhsContracting := [1]
  rhsContracting := [0]
  lhsNonContracting := [0]
  rhsNonContracting := [1]
  lhsBatch := []
  rhsBatch := []
  wf := dot_S512x3_S3x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x3_S512x3_1_0_0_1_n_n : DotDims S512x32 S32x3 S512x3 where
  lhsContracting := [1]
  rhsContracting := [0]
  lhsNonContracting := [0]
  rhsNonContracting := [1]
  lhsBatch := []
  rhsBatch := []
  wf := dot_S512x32_S32x3_S512x3_1_0_0_1_n_n_wf
def dot_S512x2048_S512x3_S2048x3_0_0_1_1_n_n : DotDims S512x2048 S512x3 S2048x3 where
  lhsContracting := [0]
  rhsContracting := [0]
  lhsNonContracting := [1]
  rhsNonContracting := [1]
  lhsBatch := []
  rhsBatch := []
  wf := dot_S512x2048_S512x3_S2048x3_0_0_1_1_n_n_wf
def dot_S512x2048_S512x1_S2048x1_0_0_1_1_n_n : DotDims S512x2048 S512x1 S2048x1 where
  lhsContracting := [0]
  rhsContracting := [0]
  lhsNonContracting := [1]
  rhsNonContracting := [1]
  lhsBatch := []
  rhsBatch := []
  wf := dot_S512x2048_S512x1_S2048x1_0_0_1_1_n_n_wf

abbrev win0_0 : Pipeline.Window sig grid0 :=
  Pipeline.Window.ofSpec (Memref.whole main_arg1) S2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S2048x3.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S2048x3 : Shape := ⟨2, ![2048, 3]⟩
abbrev S2x4192256 : Shape := ⟨2, ![2, 4192256]⟩
abbrev S6x32 : Shape := ⟨2, ![6, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S1x4192256 : Shape := ⟨2, ![1, 4192256]⟩
abbrev S4192256 : Shape := ⟨1, ![4192256]⟩
abbrev S_ : Shape := ⟨0, ![]⟩
abbrev S4192256x1 : Shape := ⟨2, ![4192256, 1]⟩
abbrev S4192256x3 : Shape := ⟨2, ![4192256, 3]⟩
abbrev S4192256x6 : Shape := ⟨2, ![4192256, 6]⟩
abbrev S4192256x32 : Shape := ⟨2, ![4192256, 32]⟩
abbrev S1x32 : Shape := ⟨2, ![1, 32]⟩
abbrev S1x3 : Shape := ⟨2, ![1, 3]⟩
abbrev S2048 : Shape := ⟨1, ![2048]⟩
abbrev S2048x1 : Shape := ⟨2, ![2048, 1]⟩

abbrev nBuf : Space → Nat
  | .hbm => 75
  | .vmem => 0
  | .smem => 0
  | _ => 0

abbrev bufTy : (tb : Table) → Fin (tcTables nBuf tb) → BufTy
  | .hbm, ⟨0, _⟩ => ⟨S2048x3, .f32⟩
  | .hbm, ⟨1, _⟩ => ⟨S2x4192256, .i32⟩
  | .hbm, ⟨2, _⟩ => ⟨S6x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x3, .f32⟩
  | .hbm, ⟨9, _⟩ => ⟨S3, .f32⟩
  | .hbm, ⟨10, _⟩ => ⟨S1x4192256, .i32⟩
  | .hbm, ⟨11, _⟩ => ⟨S4192256, .i32⟩
  | .hbm, ⟨12, _⟩ => ⟨S1x4192256, .i32⟩
  | .hbm, ⟨13, _⟩ => ⟨S4192256, .i32⟩
  | .hbm, ⟨14, _⟩ => ⟨S_, .i32⟩
  | .hbm, ⟨15, _⟩ => ⟨S4192256, .i32⟩
  | .hbm, ⟨16, _⟩ => ⟨S4192256, .i1⟩
  | .hbm, ⟨17, _⟩ => ⟨S_, .i32⟩
  | .hbm, ⟨18, _⟩ => ⟨S4192256, .i32⟩
  | .hbm, ⟨19, _⟩ => ⟨S4192256, .i32⟩
  | .hbm, ⟨20, _⟩ => ⟨S4192256, .i32⟩
  | .hbm, ⟨21, _⟩ => ⟨S4192256x1, .i32⟩
  | .hbm, ⟨22, _⟩ => ⟨S4192256x3, .f32⟩
  | .hbm, ⟨23, _⟩ => ⟨S_, .i32⟩
  | .hbm, ⟨24, _⟩ => ⟨S4192256, .i32⟩
  | .hbm, ⟨25, _⟩ => ⟨S4192256, .i1⟩
  | .hbm, ⟨26, _⟩ => ⟨S_, .i32⟩
  | .hbm, ⟨27, _⟩ => ⟨S4192256, .i32⟩
  | .hbm, ⟨28, _⟩ => ⟨S4192256, .i32⟩
  | .hbm, ⟨29, _⟩ => ⟨S4192256, .i32⟩
  | .hbm, ⟨30, _⟩ => ⟨S4192256x1, .i32⟩
  | .hbm, ⟨31, _⟩ => ⟨S4192256x3, .f32⟩
  | .hbm, ⟨32, _⟩ => ⟨S4192256x3, .f32⟩
  | .hbm, ⟨33, _⟩ => ⟨S4192256x6, .f32⟩
  | .hbm, ⟨34, _⟩ => ⟨S4192256x32, .f32⟩
  | .hbm, ⟨35, _⟩ => ⟨S1x32, .f32⟩
  | .hbm, ⟨36, _⟩ => ⟨S4192256x32, .f32⟩
  | .hbm, ⟨37, _⟩ => ⟨S4192256x32, .f32⟩
  | .hbm, ⟨38, _⟩ => ⟨S_, .f32⟩
  | .hbm, ⟨39, _⟩ => ⟨S4192256x32, .f32⟩
  | .hbm, ⟨40, _⟩ => ⟨S4192256x32, .f32⟩
  | .hbm, ⟨41, _⟩ => ⟨S4192256x32, .f32⟩
  | .hbm, ⟨42, _⟩ => ⟨S1x32, .f32⟩
  | .hbm, ⟨43, _⟩ => ⟨S4192256x32, .f32⟩
  | .hbm, ⟨44, _⟩ => ⟨S4192256x32, .f32⟩
  | .hbm, ⟨45, _⟩ => ⟨S_, .f32⟩
  | .hbm, ⟨46, _⟩ => ⟨S4192256x32, .f32⟩
  | .hbm, ⟨47, _⟩ => ⟨S4192256x32, .f32⟩
  | .hbm, ⟨48, _⟩ => ⟨S4192256x32, .f32⟩
  | .hbm, ⟨49, _⟩ => ⟨S1x32, .f32⟩
  | .hbm, ⟨50, _⟩ => ⟨S4192256x32, .f32⟩
  | .hbm, ⟨51, _⟩ => ⟨S4192256x32, .f32⟩
  | .hbm, ⟨52, _⟩ => ⟨S_, .f32⟩
  | .hbm, ⟨53, _⟩ => ⟨S4192256x32, .f32⟩
  | .hbm, ⟨54, _⟩ => ⟨S4192256x32, .f32⟩
  | .hbm, ⟨55, _⟩ => ⟨S4192256x3, .f32⟩
  | .hbm, ⟨56, _⟩ => ⟨S1x3, .f32⟩
  | .hbm, ⟨57, _⟩ => ⟨S4192256x3, .f32⟩
  | .hbm, ⟨58, _⟩ => ⟨S4192256x3, .f32⟩
  | .hbm, ⟨59, _⟩ => ⟨S_, .f32⟩
  | .hbm, ⟨60, _⟩ => ⟨S2048x3, .f32⟩
  | .hbm, ⟨61, _⟩ => ⟨S4192256x1, .i32⟩
  | .hbm, ⟨62, _⟩ => ⟨S2048x3, .f32⟩
  | .hbm, ⟨63, _⟩ => ⟨S_, .f32⟩
  | .hbm, ⟨64, _⟩ => ⟨S4192256, .f32⟩
  | .hbm, ⟨65, _⟩ => ⟨S_, .f32⟩
  | .hbm, ⟨66, _⟩ => ⟨S2048, .f32⟩
  | .hbm, ⟨67, _⟩ => ⟨S4192256x1, .i32⟩
  | .hbm, ⟨68, _⟩ => ⟨S2048, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S2048x1, .f32⟩
  | .hbm, ⟨73, _⟩ => ⟨S2048x3, .f32⟩
  | .hbm, ⟨74, _⟩ => ⟨S2048x3, .f32⟩
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  slices_S2x4192256_S1x4192256_0_0 : S2x4192256.Slices ![0, 0] S1x4192256
  shapeCasts_S1x4192256_S4192256 : S1x4192256.ShapeCasts S4192256
  slices_S2x4192256_S1x4192256_1_0 : S2x4192256.Slices ![1, 0] S1x4192256
  bcast_S_S4192256 : S_.BroadcastsInDim S4192256 (![] : Fin 0 → Fin S4192256.rank)
  bcast_S4192256_S4192256x1_0 : S4192256.BroadcastsInDim S4192256x1 (![0] : Fin 1 → Fin S4192256x1.rank)
  concatenates_S4192256x3_S4192256x3_S4192256x6_d1 : Shape.Concatenates [S4192256x3, S4192256x3] S4192256x6 1
  bcast_S32_S1x32_1 : S32.BroadcastsInDim S1x32 (![1] : Fin 1 → Fin S1x32.rank)
  bcast_S1x32_S4192256x32_0_1 : S1x32.BroadcastsInDim S4192256x32 (![0, 1] : Fin 2 → Fin S4192256x32.rank)
  bcast_S_S4192256x32 : S_.BroadcastsInDim S4192256x32 (![] : Fin 0 → Fin S4192256x32.rank)
  bcast_S3_S1x3_1 : S3.BroadcastsInDim S1x3 (![1] : Fin 1 → Fin S1x3.rank)
  bcast_S1x3_S4192256x3_0_1 : S1x3.BroadcastsInDim S4192256x3 (![0, 1] : Fin 2 → Fin S4192256x3.rank)
  bcast_S_S2048x3 : S_.BroadcastsInDim S2048x3 (![] : Fin 0 → Fin S2048x3.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3_0_1 : S2048x1.BroadcastsInDim S2048x3 (![0, 1] : Fin 2 → Fin S2048x3.rank)
  gather_S2048x3_S4192256x1_S4192256x3_1_0_n_n_0_1_13_wf : GatherDims.WF S2048x3 S4192256x1 S4192256x3 [1] [0] [] [0] [] 1 ![1, 3]
  dot_S4192256x6_S6x32_S4192256x32_1_0_0_1_n_n_wf : DotDims.WF S4192256x6 S6x32 S4192256x32 [1] [0] [0] [1] [] []
  dot_S4192256x32_S32x32_S4192256x32_1_0_0_1_n_n_wf : DotDims.WF S4192256x32 S32x32 S4192256x32 [1] [0] [0] [1] [] []
  dot_S4192256x32_S32x3_S4192256x3_1_0_0_1_n_n_wf : DotDims.WF S4192256x32 S32x3 S4192256x3 [1] [0] [0] [1] [] []
  scatter_S2048x3_S4192256x1_S4192256x3_1_0_0_1_wf : ScatterDims.WF S2048x3 S4192256x1 S4192256x3 [1] [0] [0] 1
  scatter_S2048_S4192256x1_S4192256_n_0_0_1_wf : ScatterDims.WF S2048 S4192256x1 S4192256 [] [0] [0] 1

variable [Facts₀]

def gather_S2048x3_S4192256x1_S4192256x3_1_0_n_n_0_1_13 : GatherDims S2048x3 S4192256x1 S4192256x3 where
  offsetDims := [1]
  collapsedSliceDims := [0]
  operandBatchingDims := []
  startIndicesBatchingDims := []
  startIndexMap := [0]
  indexVectorDim := 1
  sliceSizes := ![1, 3]
  wf := gather_S2048x3_S4192256x1_S4192256x3_1_0_n_n_0_1_13_wf
def dot_S4192256x6_S6x32_S4192256x32_1_0_0_1_n_n : DotDims S4192256x6 S6x32 S4192256x32 where
  lhsContracting := [1]
  rhsContracting := [0]
  lhsNonContracting := [0]
  rhsNonContracting := [1]
  lhsBatch := []
  rhsBatch := []
  wf := dot_S4192256x6_S6x32_S4192256x32_1_0_0_1_n_n_wf
def dot_S4192256x32_S32x32_S4192256x32_1_0_0_1_n_n : DotDims S4192256x32 S32x32 S4192256x32 where
  lhsContracting := [1]
  rhsContracting := [0]
  lhsNonContracting := [0]
  rhsNonContracting := [1]
  lhsBatch := []
  rhsBatch := []
  wf := dot_S4192256x32_S32x32_S4192256x32_1_0_0_1_n_n_wf
def dot_S4192256x32_S32x3_S4192256x3_1_0_0_1_n_n : DotDims S4192256x32 S32x3 S4192256x3 where
  lhsContracting := [1]
  rhsContracting := [0]
  lhsNonContracting := [0]
  rhsNonContracting := [1]
  lhsBatch := []
  rhsBatch := []
  wf := dot_S4192256x32_S32x3_S4192256x3_1_0_0_1_n_n_wf
def scatter_S2048x3_S4192256x1_S4192256x3_1_0_0_1 : ScatterDims S2048x3 S4192256x1 S4192256x3 where
  updateWindowDims := [1]
  insertedWindowDims := [0]
  scatterDimsToOperandDims := [0]
  indexVectorDim := 1
  wf := scatter_S2048x3_S4192256x1_S4192256x3_1_0_0_1_wf
def scatter_S2048_S4192256x1_S4192256_n_0_0_1 : ScatterDims S2048 S4192256x1 S4192256 where
  updateWindowDims := []
  insertedWindowDims := [0]
  scatterDimsToOperandDims := [0]
  indexVectorDim := 1
  wf := scatter_S2048_S4192256x1_S4192256_n_0_0_1_wf

class Facts : Prop extends Facts₀ where

variable [Facts]
-- ==== Proof.KernelPieces.lean ====
/-
  WHAT ONE GRID POINT LEAVES BEHIND, as pure terms of what it read.

  The kernel body runs in three forms: at the first grid point it zeroes its two accumulators and then adds the block's
  contribution; at a middle point it only adds; at the last point it adds and then writes the quotient out. Each form's
  stores are single whole-buffer stores, so what a buffer holds afterwards is the last store's payload, and a load of a
  buffer stored earlier in the same run reads that store's payload.

  addSums names the accumulator update of the message sums: the old contents plus the transposed indicator of the
  block's destination row times the block's 512 messages. addCount names the update of the counts. Both depend on the edge
  block only through its two rows, the sources (row 0) and the destinations (row 1).
-/
import proofs.«413416_j73040213836197_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- Row 0 of an edge block: the 512 source words. -/
abbrev srcRow (x0 : Vec F S2x512 .i32) : Vec F S1x512 .i32 := View.ld x0 (Rect.unit ![0, 0] S1x512.size inb_S2x512_S1x512_0_0)
/-- Row 1 of an edge block: the 512 destination words. -/
abbrev dstRow (x0 : Vec F S2x512 .i32) : Vec F S1x512 .i32 := View.ld x0 (Rect.unit ![1, 0] S1x512.size inb_S2x512_S1x512_1_0)

/-- The message-sum accumulator after a block: acc plus the block's messages sent to their destinations. -/
def addSums (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) (acc : Vec F S2048x3 .f32) : FVec F S2048x3 .f32 :=
  k0_pay9 (k0_pay4 (dstRow x0)) (k0_pay5 (dstRow x0) x1) (k0_pay6 (srcRow x0) (dstRow x0) x1) (k0_pay7 x2) (k0_pay8 x3)
    x4 x5 x6 x7 x8 x9 x10 (constant S512x32 .f32 0x00000000#32) acc

/-- The count accumulator after a block: acc plus one per edge of the block at its destination. -/
def addCount (x0 : Vec F S2x512 .i32) (acc : Vec F S2048x1 .f32) : FVec F S2048x1 .f32 :=
  k0_pay10 (k0_pay4 (dstRow x0)) acc

/-! ## A middle point: add to what the point before left -/

theorem sums_mid (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : ¬cond0_0 i) (hc1 : ¬cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) (xs0 : Vec F S2048x3 .f32) (xs1 : Vec F S2048x1 .f32) :
    sout0_B_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1 = addSums x0 x1 x2 x3 x4 x5 x6 x7 x8 x9 x10 xs0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

theorem count_mid (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : ¬cond0_0 i) (hc1 : ¬cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) (xs0 : Vec F S2048x3 .f32) (xs1 : Vec F S2048x1 .f32) :
    sout0_B_1 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1 = addCount x0 xs1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

/-! ## The first point: zero, then add -/

theorem sums_first (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : cond0_0 i) (hc1 : ¬cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) :
    sout0_A_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = addSums x0 x1 x2 x3 x4 x5 x6 x7 x8 x9 x10 (k0_pay2 (F := F)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S2048x3) hz2, View.readCov_unit_zero (S := S2048x3) _ hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

theorem count_first (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : cond0_0 i) (hc1 : ¬cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) :
    sout0_A_1 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = addCount x0 (k0_pay3 (F := F)) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S2048x1) hz2, View.readCov_unit_zero (S := S2048x1) _ hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

/-! ## The last point: add, then write the quotient -/

theorem sums_last (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : ¬cond0_0 i) (hc1 : cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) (xs0 : Vec F S2048x3 .f32) (xs1 : Vec F S2048x1 .f32) :
    sout0_C_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1 = addSums x0 x1 x2 x3 x4 x5 x6 x7 x8 x9 x10 xs0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

theorem count_last (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : ¬cond0_0 i) (hc1 : cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) (xs0 : Vec F S2048x3 .f32) (xs1 : Vec F S2048x1 .f32) :
    sout0_C_1 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1 = addCount x0 xs1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

/-- What the last point writes out: the quotient of the two accumulators as it has just updated them. -/
theorem out_last (c : Dev nD) (i : grid0.Coords) (a1 : Memref sig .tc .vmem S2x512 .i32) (h1 : a1.IsWhole) (a2 : Memref sig .tc .vmem S2048x3 .f32) (h2 : a2.IsWhole) (a3 : Memref sig .tc .vmem S3x32 .f32) (h3 : a3.IsWhole) (a4 : Memref sig .tc .vmem S3x32 .f32) (h4 : a4.IsWhole) (a5 : Memref sig .tc .vmem S32 .f32) (h5 : a5.IsWhole) (a6 : Memref sig .tc .vmem S32x32 .f32) (h6 : a6.IsWhole) (a7 : Memref sig .tc .vmem S32 .f32) (h7 : a7.IsWhole) (a8 : Memref sig .tc .vmem S32x32 .f32) (h8 : a8.IsWhole) (a9 : Memref sig .tc .vmem S32 .f32) (h9 : a9.IsWhole) (a10 : Memref sig .tc .vmem S32x3 .f32) (h10 : a10.IsWhole) (a11 : Memref sig .tc .vmem S3 .f32) (h11 : a11.IsWhole) (a12 : Memref sig .tc .vmem S2048x3 .f32) (h12 : a12.IsWhole) (a13 : Memref sig .tc .vmem S2048x3 .f32) (h13 : a13.IsWhole) (a14 : Memref sig .tc .vmem S2048x1 .f32) (h14 : a14.IsWhole) (hc0 : ¬cond0_0 i) (hc1 : cond0_1 i) (x0 : Vec F S2x512 .i32) (x1 : Vec F S2048x3 .f32) (x2 : Vec F S3x32 .f32) (x3 : Vec F S3x32 .f32) (x4 : Vec F S32 .f32) (x5 : Vec F S32x32 .f32) (x6 : Vec F S32 .f32) (x7 : Vec F S32x32 .f32) (x8 : Vec F S32 .f32) (x9 : Vec F S32x3 .f32) (x10 : Vec F S3 .f32) (xs0 : Vec F S2048x3 .f32) (xs1 : Vec F S2048x1 .f32) :
    out0_C_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1 = k0_pay1 (addSums x0 x1 x2 x3 x4 x5 x6 x7 x8 x9 x10 xs0) (addCount x0 xs1) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xs0 xs1)]
  unfold kernelRun0_C
  dsimp only
  sl_unfold_words
  rw [View.canon_unit_zero hz2]
  simp only [View.readCov_unit_zero (S := S2048x3) _ hz2, View.readCov_unit_zero (S := S2048x1) _ hz2, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S2048x3) hz2, View.ld_unit_zero (S := S2048x1) hz2, View.ld_unit_zero (S := S3x32) hz2, View.ld_unit_zero (S := S32x32) hz2, View.ld_unit_zero (S := S32x3) hz2, View.ld_unit_zero (S := S32) hz1, View.ld_unit_zero (S := S3) hz1]
  rfl

end Cert.KernelIdeal.Pieces

end
-- ==== Proof.EdgeConvSpec.lean ====
/-
  EDGE CONVOLUTION WITH MEAN AGGREGATION, as one function of the argument arrays.

  For every directed edge e = (src e, dst e) of a graph on 2048 nodes with 3 features per node, a message is computed by a
  four-layer perceptron from the pair (x_dst, x_src - x_dst); node n receives the mean of the messages of the edges whose
  destination is n: the sum of those messages divided by max(count, 1).

  The first layer multiplies the six-vector (x_dst, x_src - x_dst) by a 6 x 32 matrix. Written on the two halves it is the
  product of x_dst with the matrix's rows 0..2 plus the product of x_src - x_dst with its rows 3..5 (sum_six_split: a sum
  over six terms is the sum over the first three plus the sum over the last three, which is associativity alone).

  A node's feature row can be selected by an indicator: the sum over all nodes n of [v names n] * x n is x at the node v
  names, because 0 * a = 0 and 1 * a = a for every extended real a (sum_indicator_mul). The same indicator, transposed,
  sends messages to their destinations: the sum over the edges of [dst e = n] * msg e is the sum of msg e over the edges
  with dst e = n (sum_indicator_filter).

  The 4192256 edges are visited in 8188 consecutive blocks of 512: the sum over the blocks of the sums inside each block is
  the sum over all edges (sum_blocks).

  Nothing here needs a finite input: only the laws of a commutative monoid under +, and 0 * a = 0, 1 * a = a.
-/
import Idealize.ShloMosaic.PureOps.Ideal
import Idealize.ShloMosaic.Lib.ValueIdx
import Mathlib.Algebra.BigOperators.Fin
import Mathlib.Algebra.BigOperators.Group.Finset.Basic
import Mathlib.Logic.Equiv.Fin.Basic

noncomputable section

open scoped BigOperators

namespace EdgeConv

open Idealize.ShloMosaic Idealize.ShloMosaic.ValueIdx

/-! ## The arguments -/

/-- The four layers' weights and biases. -/
structure Params where
  W1 : (⟨2, ![6, 32]⟩ : Shape).Idx → EReal
  b1 : (⟨1, ![32]⟩ : Shape).Idx → EReal
  W2 : (⟨2, ![32, 32]⟩ : Shape).Idx → EReal
  b2 : (⟨1, ![32]⟩ : Shape).Idx → EReal
  W3 : (⟨2, ![32, 32]⟩ : Shape).Idx → EReal
  b3 : (⟨1, ![32]⟩ : Shape).Idx → EReal
  W4 : (⟨2, ![32, 3]⟩ : Shape).Idx → EReal
  b4 : (⟨1, ![3]⟩ : Shape).Idx → EReal

/-- The zero the rectifier compares with, and the one the counts are made of and compared with: the float words, unread. -/
abbrev zeroF : EReal := Ideal.ofBits .f32 0x00000000#32
abbrev oneF : EReal := Ideal.ofBits .f32 0x3F800000#32

/-- The node a 32-bit word names (a word below 2048 names itself). -/
def node (v : BitVec 32) : Fin 2048 := ⟨v.toNat % 2048, Nat.mod_lt _ (by decide)⟩

theorem node_val_of_lt {v : BitVec 32} (h : v.toNat < 2048) : (node v).val = v.toNat := Nat.mod_eq_of_lt h

/-- A word below 2048 is the word of the node n exactly when it names n. -/
theorem eq_ofNat_iff_node {v : BitVec 32} (h : v.toNat < 2048) (n : Fin 2048) : v = BitVec.ofNat 32 n.val ↔ node v = n := by
  constructor
  · intro hv
    refine Fin.ext ?_
    rw [node_val_of_lt h, hv, BitVec.toNat_ofNat]
    exact Nat.mod_eq_of_lt (by have := n.isLt; omega)
  · intro hn
    refine BitVec.eq_of_toNat_eq ?_
    rw [BitVec.toNat_ofNat, ← hn, node_val_of_lt h]
    exact (Nat.mod_eq_of_lt (by omega)).symm

/-! ## The perceptron on one edge -/

def layer1 (P : Params) (xi dx : Fin 3 → EReal) (k : Fin 32) : EReal :=
  max ((∑ d : Fin 3, xi d * P.W1 (ix2 (⟨d.val, by omega⟩ : Fin 6) k))
      + (∑ d : Fin 3, dx d * P.W1 (ix2 (⟨d.val + 3, by omega⟩ : Fin 6) k)) + P.b1 (ix1 k)) zeroF

def layer2 (P : Params) (h : Fin 32 → EReal) (k : Fin 32) : EReal :=
  max ((∑ j : Fin 32, h j * P.W2 (ix2 j k)) + P.b2 (ix1 k)) zeroF

def layer3 (P : Params) (h : Fin 32 → EReal) (k : Fin 32) : EReal :=
  max ((∑ j : Fin 32, h j * P.W3 (ix2 j k)) + P.b3 (ix1 k)) zeroF

def layer4 (P : Params) (h : Fin 32 → EReal) (d : Fin 3) : EReal :=
  (∑ j : Fin 32, h j * P.W4 (ix2 j d)) + P.b4 (ix1 d)

/-- The message of an edge whose destination has features xi and whose source's features differ from them by dx. -/
def mlp (P : Params) (xi dx : Fin 3 → EReal) : Fin 3 → EReal :=
  layer4 P (layer3 P (layer2 P (layer1 P xi dx)))

/-! ## The whole result -/

section Result
variable (P : Params) (x : (⟨2, ![2048, 3]⟩ : Shape).Idx → EReal) (ei : (⟨2, ![2, 4192256]⟩ : Shape).Idx → BitVec 32)

/-- Edge e's source and destination nodes: rows 0 and 1 of the edge array. -/
def srcN (e : Fin 4192256) : Fin 2048 := node (ei (ix2 (0 : Fin 2) e))
def dstN (e : Fin 4192256) : Fin 2048 := node (ei (ix2 (1 : Fin 2) e))

/-- Edge e's message. -/
def msg (e : Fin 4192256) : Fin 3 → EReal :=
  mlp P (fun d => x (ix2 (dstN ei e) d)) (fun d => x (ix2 (srcN ei e) d) - x (ix2 (dstN ei e) d))

/-- The sum of the messages arriving at node n, and their number (a sum of ones). -/
def msgSum (n : Fin 2048) (d : Fin 3) : EReal :=
  ∑ e ∈ Finset.univ.filter (fun e : Fin 4192256 => dstN ei e = n), msg P x ei e d
def msgCount (n : Fin 2048) : EReal :=
  ∑ _e ∈ Finset.univ.filter (fun e : Fin 4192256 => dstN ei e = n), oneF

/-- THE RESULT: at node n and feature d, the mean message. -/
def G : (⟨2, ![2048, 3]⟩ : Shape).Idx → EReal :=
  fun i => Ideal.div (msgSum P x ei (i 0) (i 1)) (max (msgCount ei (i 0)) oneF)

end Result

/-! ## The laws -/

/-- Six terms are the first three plus the last three. -/
theorem sum_six_split (f : Fin 6 → EReal) :
    ∑ j : Fin 6, f j = (∑ d : Fin 3, f ⟨d.val, by omega⟩) + ∑ d : Fin 3, f ⟨d.val + 3, by omega⟩ := by
  rw [Fin.sum_univ_six, Fin.sum_univ_three, Fin.sum_univ_three]
  simp only [add_assoc]
  rfl

/-- Selecting by an indicator: the one term whose node the word names survives. -/
theorem sum_indicator_mul {v : BitVec 32} (h : v.toNat < 2048) (one zero : EReal) (h1 : one = 1) (h0 : zero = 0)
    (f : Fin 2048 → EReal) :
    ∑ n : Fin 2048, (if v = BitVec.ofNat 32 n.val then one else zero) * f n = f (node v) := by
  subst h1 h0
  rw [Finset.sum_eq_single (node v)]
  · rw [if_pos ((eq_ofNat_iff_node h _).2 rfl), one_mul]
  · intro n _ hn
    rw [if_neg (fun hv => hn ((eq_ofNat_iff_node h n).1 hv).symm), zero_mul]
  · intro hn
    exact absurd (Finset.mem_univ _) hn

/-- Sending by an indicator: a sum of indicator multiples is the sum over the indices the indicator keeps. -/
theorem sum_indicator_filter {ι : Type*} [Fintype ι] (p : ι → Prop) [DecidablePred p] (one zero : EReal) (h1 : one = 1)
    (h0 : zero = 0) (f : ι → EReal) :
    ∑ e : ι, (if p e then one else zero) * f e = ∑ e ∈ Finset.univ.filter p, f e := by
  subst h1 h0
  rw [Finset.sum_filter]
  refine Finset.sum_congr rfl fun e _ => ?_
  by_cases hp : p e
  · rw [if_pos hp, if_pos hp, one_mul]
  · rw [if_neg hp, if_neg hp, zero_mul]

/-- The edge at row r of block t. -/
def edgeAt (t : Fin 8188) (r : Fin 512) : Fin 4192256 := ⟨512 * t.val + r.val, by have := t.isLt; have := r.isLt; omega⟩

/-- Block by block is edge by edge. -/
theorem sum_blocks {M : Type*} [AddCommMonoid M] (f : Fin 4192256 → M) :
    ∑ t : Fin 8188, ∑ r : Fin 512, f (edgeAt t r) = ∑ e : Fin 4192256, f e := by
  rw [← Fintype.sum_prod_type (f := fun p : Fin 8188 × Fin 512 => f (edgeAt p.1 p.2))]
  refine Fintype.sum_equiv (finProdFinEquiv (m := 8188) (n := 512)) _ _ fun p => ?_
  refine congrArg f (Fin.ext ?_)
  show 512 * p.1.val + p.2.val = p.2.val + 512 * p.1.val
  omega

end EdgeConv

end
-- ==== Proof.KernelPayloads.lean ====
/-
  THE KERNEL'S ARITHMETIC, READ AT AN INDEX.

  The kernel's body is a handful of pure terms over the values it loads. Each of them is read here at one index, at the
  ideal values, as the sum, product, maximum or quotient of extended reals it denotes:

  * the indicator matrix of a row of 512 words against the 2048 node numbers: entry (r, n) is 1 when word r is the
    word of n and 0 otherwise (a comparison's bit, widened and converted);
  * the product of that indicator with the node features, which selects the feature row of the node each word names;
  * the four-layer perceptron, layer by layer: a matrix product read at (r, k) is the sum over the contracted
    coordinate j of lhs (r, j) * rhs (j, k), a bias row is read at its column, the rectifier is the maximum with zero;
  * the product of the TRANSPOSED indicator with the messages, which contracts the 512 rows of a block: entry (n, d) is
    the sum over the rows r of indicator (r, n) * message (r, d); added to what the accumulator held;
  * the same with a column of ones for the counts; the final quotient; the zero resets.

  A matrix product's operand indices are named by the product's dimension numbers; the four facts "which coordinate of
  the result or of the contraction does this operand axis read" are stated once per product and the sum is re-indexed
  over the one contracted coordinate.
-/
import proofs.«413416_j73040213836197_1_alg».proof.Proof.Gen.KernelIdeal.Skeleton
import proofs.«413416_j73040213836197_1_alg».proof.Proof.EdgeConvSpec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic
import Mathlib.Logic.Equiv.Basic

noncomputable section

open scoped BigOperators

namespace Cert.KernelIdeal.Payloads

open Cert.KernelIdeal Cert.KernelIdeal.Gen Idealize.ShloMosaic Idealize.ShloMosaic.ValueIdx EdgeConv

/-! ## Two layout operations read at an index: a column made of a vector, and a column broadcast along the rows -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix product into a zero accumulator, read at an index

Two forms occur: rows times columns (the left operand's axis 1 against the right operand's axis 0) and the transposed
left operand times the right (axis 0 of both contracted). In each the four facts naming which coordinate an operand
axis reads are hypotheses; each product of the kernel supplies them from its dimension numbers. -/

section Products
variable {m k n : ℕ}

/-- Rows times columns: entry `(p, c)` is `∑ j, lhs (p, j) * rhs (j, c)`. -/
theorem matmul_rows_cols_apply (D : DotDims ⟨2, ![m, k]⟩ ⟨2, ![k, n]⟩ ⟨2, ![m, n]⟩) (hr : D.contr.rank = 1)
    (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (lhs : FVec Ideal ⟨2, ![m, k]⟩ .f32) (rhs : FVec Ideal ⟨2, ![k, n]⟩ .f32) (p : Fin m) (c : Fin n) :
    FloatOps.matmul D none lhs rhs (constant (F := Ideal) ⟨2, ![m, n]⟩ .f32 0x00000000#32) (ix2 p c)
      = ∑ j : Fin k, lhs (ix2 p j) * rhs (ix2 j c) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun a => Fin.ext (by
    match a with
    | ⟨0, _⟩ => exact l0 _ _
    | ⟨1, _⟩ => exact (l1 _ _).trans hk)
  have er : D.rhsIdx (ix2 p c) ((contrEquiv1 D k hr hs).symm j) = ix2 j c := funext fun a => Fin.ext (by
    match a with
    | ⟨0, _⟩ => exact (r0 _ _).trans hk
    | ⟨1, _⟩ => exact r1 _ _)
  rw [el, er]

/-- The transposed left operand times the right: entry `(p, c)` is `∑ j, lhs (j, p) * rhs (j, c)`. -/
theorem matmul_cols_cols_apply (D : DotDims ⟨2, ![k, m]⟩ ⟨2, ![k, n]⟩ ⟨2, ![m, n]⟩) (hr : D.contr.rank = 1)
    (hs : D.contr.size ⟨0, by omega⟩ = k)
    (l0 : ∀ (i : (⟨2, ![m, n]⟩ : Shape).Idx) (q : D.contr.Idx), (D.lhsIdx i q 0).val = (q ⟨0, by omega⟩).val)
    (l1 : ∀ (i : (⟨2, ![m, n]⟩ : Shape).Idx) (q : D.contr.Idx), (D.lhsIdx i q 1).val = (i 0).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (lhs : FVec Ideal ⟨2, ![k, m]⟩ .f32) (rhs : FVec Ideal ⟨2, ![k, n]⟩ .f32) (p : Fin m) (c : Fin n) :
    FloatOps.matmul D none lhs rhs (constant (F := Ideal) ⟨2, ![m, n]⟩ .f32 0x00000000#32) (ix2 p c)
      = ∑ j : Fin k, lhs (ix2 j p) * rhs (ix2 j c) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 j p := funext fun a => Fin.ext (by
    match a with
    | ⟨0, _⟩ => exact (l0 _ _).trans hk
    | ⟨1, _⟩ => exact l1 _ _)
  have er : D.rhsIdx (ix2 p c) ((contrEquiv1 D k hr hs).symm j) = ix2 j c := funext fun a => Fin.ext (by
    match a with
    | ⟨0, _⟩ => exact (r0 _ _).trans hk
    | ⟨1, _⟩ => exact r1 _ _)
  rw [el, er]

end Products

/-! ## The kernel's six products -/

/-! ### The indicator times the node features: `[512, 2048] × [2048, 3]` -/

theorem lhs_gather_0 (i : S512x3.Idx) (q : dot_S512x2048_S2048x3_S512x3_1_0_0_1_n_n.contr.Idx) :
    (dot_S512x2048_S2048x3_S512x3_1_0_0_1_n_n.lhsIdx i q 0).val = (i 0).val := by
  unfold DotDims.lhsIdx
  rw [dif_neg (show ¬(0 : Fin S512x2048.rank) ∈ dot_S512x2048_S2048x3_S512x3_1_0_0_1_n_n.lhsBatch by decide), dif_pos (show (0 : Fin S512x2048.rank) ∈ dot_S512x2048_S2048x3_S512x3_1_0_0_1_n_n.lhsNonContracting by decide)]
  rfl
theorem lhs_gather_1 (i : S512x3.Idx) (q : dot_S512x2048_S2048x3_S512x3_1_0_0_1_n_n.contr.Idx) :
    (dot_S512x2048_S2048x3_S512x3_1_0_0_1_n_n.lhsIdx i q 1).val = (q ⟨0, by decide⟩).val :=
  dot_S512x2048_S2048x3_S512x3_1_0_0_1_n_n.lhsIdx_val_of_single rfl i q
theorem rhs_gather_0 (i : S512x3.Idx) (q : dot_S512x2048_S2048x3_S512x3_1_0_0_1_n_n.contr.Idx) :
    (dot_S512x2048_S2048x3_S512x3_1_0_0_1_n_n.rhsIdx i q 0).val = (q ⟨0, by decide⟩).val :=
  dot_S512x2048_S2048x3_S512x3_1_0_0_1_n_n.rhsIdx_val_of_single rfl i q
theorem rhs_gather_1 (i : S512x3.Idx) (q : dot_S512x2048_S2048x3_S512x3_1_0_0_1_n_n.contr.Idx) :
    (dot_S512x2048_S2048x3_S512x3_1_0_0_1_n_n.rhsIdx i q 1).val = (i 1).val := by
  unfold DotDims.rhsIdx
  rw [dif_neg (show ¬(1 : Fin S2048x3.rank) ∈ dot_S512x2048_S2048x3_S512x3_1_0_0_1_n_n.rhsBatch by decide), dif_pos (show (1 : Fin S2048x3.rank) ∈ dot_S512x2048_S2048x3_S512x3_1_0_0_1_n_n.rhsNonContracting by decide)]
  rfl
theorem matmul_gather_apply (lhs : FVec Ideal S512x2048 .f32) (rhs : FVec Ideal S2048x3 .f32) (p : Fin 512) (c : Fin 3) :
    matmul dot_S512x2048_S2048x3_S512x3_1_0_0_1_n_n none lhs rhs (constant (F := Ideal) S512x3 .f32 0x00000000#32) (ix2 p c)
      = ∑ j : Fin 2048, lhs (ix2 p j) * rhs (ix2 j c) :=
  matmul_rows_cols_apply dot_S512x2048_S2048x3_S512x3_1_0_0_1_n_n rfl rfl lhs_gather_0 lhs_gather_1 rhs_gather_0 rhs_gather_1 lhs rhs p c

/-! ### A half of the first layer: `[512, 3] × [3, 32]` -/

theorem lhs_first_0 (i : S512x32.Idx) (q : dot_S512x3_S3x32_S512x32_1_0_0_1_n_n.contr.Idx) :
    (dot_S512x3_S3x32_S512x32_1_0_0_1_n_n.lhsIdx i q 0).val = (i 0).val := by
  unfold DotDims.lhsIdx
  rw [dif_neg (show ¬(0 : Fin S512x3.rank) ∈ dot_S512x3_S3x32_S512x32_1_0_0_1_n_n.lhsBatch by decide), dif_pos (show (0 : Fin S512x3.rank) ∈ dot_S512x3_S3x32_S512x32_1_0_0_1_n_n.lhsNonContracting by decide)]
  rfl
theorem lhs_first_1 (i : S512x32.Idx) (q : dot_S512x3_S3x32_S512x32_1_0_0_1_n_n.contr.Idx) :
    (dot_S512x3_S3x32_S512x32_1_0_0_1_n_n.lhsIdx i q 1).val = (q ⟨0, by decide⟩).val :=
  dot_S512x3_S3x32_S512x32_1_0_0_1_n_n.lhsIdx_val_of_single rfl i q
theorem rhs_first_0 (i : S512x32.Idx) (q : dot_S512x3_S3x32_S512x32_1_0_0_1_n_n.contr.Idx) :
    (dot_S512x3_S3x32_S512x32_1_0_0_1_n_n.rhsIdx i q 0).val = (q ⟨0, by decide⟩).val :=
  dot_S512x3_S3x32_S512x32_1_0_0_1_n_n.rhsIdx_val_of_single rfl i q
theorem rhs_first_1 (i : S512x32.Idx) (q : dot_S512x3_S3x32_S512x32_1_0_0_1_n_n.contr.Idx) :
    (dot_S512x3_S3x32_S512x32_1_0_0_1_n_n.rhsIdx i q 1).val = (i 1).val := by
  unfold DotDims.rhsIdx
  rw [dif_neg (show ¬(1 : Fin S3x32.rank) ∈ dot_S512x3_S3x32_S512x32_1_0_0_1_n_n.rhsBatch by decide), dif_pos (show (1 : Fin S3x32.rank) ∈ dot_S512x3_S3x32_S512x32_1_0_0_1_n_n.rhsNonContracting by decide)]
  rfl
theorem matmul_first_apply (lhs : FVec Ideal S512x3 .f32) (rhs : FVec Ideal S3x32 .f32) (p : Fin 512) (c : Fin 32) :
    matmul dot_S512x3_S3x32_S512x32_1_0_0_1_n_n none lhs rhs (constant (F := Ideal) S512x32 .f32 0x00000000#32) (ix2 p c)
      = ∑ j : Fin 3, lhs (ix2 p j) * rhs (ix2 j c) :=
  matmul_rows_cols_apply dot_S512x3_S3x32_S512x32_1_0_0_1_n_n rfl rfl lhs_first_0 lhs_first_1 rhs_first_0 rhs_first_1 lhs rhs p c

/-! ### A hidden layer: `[512, 32] × [32, 32]` -/

theorem lhs_hidden_0 (i : S512x32.Idx) (q : dot_S512x32_S32x32_S512x32_1_0_0_1_n_n.contr.Idx) :
    (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
theorem lhs_hidden_1 (i : S512x32.Idx) (q : dot_S512x32_S32x32_S512x32_1_0_0_1_n_n.contr.Idx) :
    (dot_S512x32_S32x32_S512x32_1_0_0_1_n_n.lhsIdx i q 1).val = (q ⟨0, by decide⟩).val :=
  dot_S512x32_S32x32_S512x32_1_0_0_1_n_n.lhsIdx_val_of_single rfl i q
theorem rhs_hidden_0 (i : S512x32.Idx) (q : dot_S512x32_S32x32_S512x32_1_0_0_1_n_n.contr.Idx) :
    (dot_S512x32_S32x32_S512x32_1_0_0_1_n_n.rhsIdx i q 0).val = (q ⟨0, by decide⟩).val :=
  dot_S512x32_S32x32_S512x32_1_0_0_1_n_n.rhsIdx_val_of_single rfl i q
theorem rhs_hidden_1 (i : S512x32.Idx) (q : dot_S512x32_S32x32_S512x32_1_0_0_1_n_n.contr.Idx) :
    (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl
theorem matmul_hidden_apply (lhs : FVec Ideal S512x32 .f32) (rhs : FVec Ideal S32x32 .f32) (p : Fin 512) (c : Fin 32) :
    matmul dot_S512x32_S32x32_S512x32_1_0_0_1_n_n none lhs rhs (constant (F := Ideal) S512x32 .f32 0x00000000#32) (ix2 p c)
      = ∑ j : Fin 32, lhs (ix2 p j) * rhs (ix2 j c) :=
  matmul_rows_cols_apply dot_S512x32_S32x32_S512x32_1_0_0_1_n_n rfl rfl lhs_hidden_0 lhs_hidden_1 rhs_hidden_0 rhs_hidden_1 lhs rhs p c

/-! ### The last layer: `[512, 32] × [32, 3]` -/

theorem lhs_last_0 (i : S512x3.Idx) (q : dot_S512x32_S32x3_S512x3_1_0_0_1_n_n.contr.Idx) :
    (dot_S512x32_S32x3_S512x3_1_0_0_1_n_n.lhsIdx i q 0).val = (i 0).val := by
  unfold DotDims.lhsIdx
  rw [dif_neg (show ¬(0 : Fin S512x32.rank) ∈ dot_S512x32_S32x3_S512x3_1_0_0_1_n_n.lhsBatch by decide), dif_pos (show (0 : Fin S512x32.rank) ∈ dot_S512x32_S32x3_S512x3_1_0_0_1_n_n.lhsNonContracting by decide)]
  rfl
theorem lhs_last_1 (i : S512x3.Idx) (q : dot_S512x32_S32x3_S512x3_1_0_0_1_n_n.contr.Idx) :
    (dot_S512x32_S32x3_S512x3_1_0_0_1_n_n.lhsIdx i q 1).val = (q ⟨0, by decide⟩).val :=
  dot_S512x32_S32x3_S512x3_1_0_0_1_n_n.lhsIdx_val_of_single rfl i q
theorem rhs_last_0 (i : S512x3.Idx) (q : dot_S512x32_S32x3_S512x3_1_0_0_1_n_n.contr.Idx) :
    (dot_S512x32_S32x3_S512x3_1_0_0_1_n_n.rhsIdx i q 0).val = (q ⟨0, by decide⟩).val :=
  dot_S512x32_S32x3_S512x3_1_0_0_1_n_n.rhsIdx_val_of_single rfl i q
theorem rhs_last_1 (i : S512x3.Idx) (q : dot_S512x32_S32x3_S512x3_1_0_0_1_n_n.contr.Idx) :
    (dot_S512x32_S32x3_S512x3_1_0_0_1_n_n.rhsIdx i q 1).val = (i 1).val := by
  unfold DotDims.rhsIdx
  rw [dif_neg (show ¬(1 : Fin S32x3.rank) ∈ dot_S512x32_S32x3_S512x3_1_0_0_1_n_n.rhsBatch by decide), dif_pos (show (1 : Fin S32x3.rank) ∈ dot_S512x32_S32x3_S512x3_1_0_0_1_n_n.rhsNonContracting by decide)]
  rfl
theorem matmul_last_apply (lhs : FVec Ideal S512x32 .f32) (rhs : FVec Ideal S32x3 .f32) (p : Fin 512) (c : Fin 3) :
    matmul dot_S512x32_S32x3_S512x3_1_0_0_1_n_n none lhs rhs (constant (F := Ideal) S512x3 .f32 0x00000000#32) (ix2 p c)
      = ∑ j : Fin 32, lhs (ix2 p j) * rhs (ix2 j c) :=
  matmul_rows_cols_apply dot_S512x32_S32x3_S512x3_1_0_0_1_n_n rfl rfl lhs_last_0 lhs_last_1 rhs_last_0 rhs_last_1 lhs rhs p c

/-! ### The transposed indicator times the messages: `[512, 2048]ᵀ × [512, 3]` -/

theorem lhs_scatter_0 (i : S2048x3.Idx) (q : dot_S512x2048_S512x3_S2048x3_0_0_1_1_n_n.contr.Idx) :
    (dot_S512x2048_S512x3_S2048x3_0_0_1_1_n_n.lhsIdx i q 0).val = (q ⟨0, by decide⟩).val :=
  dot_S512x2048_S512x3_S2048x3_0_0_1_1_n_n.lhsIdx_val_of_single rfl i q
theorem lhs_scatter_1 (i : S2048x3.Idx) (q : dot_S512x2048_S512x3_S2048x3_0_0_1_1_n_n.contr.Idx) :
    (dot_S512x2048_S512x3_S2048x3_0_0_1_1_n_n.lhsIdx i q 1).val = (i 0).val := by
  unfold DotDims.lhsIdx
  rw [dif_neg (show ¬(1 : Fin S512x2048.rank) ∈ dot_S512x2048_S512x3_S2048x3_0_0_1_1_n_n.lhsBatch by decide), dif_pos (show (1 : Fin S512x2048.rank) ∈ dot_S512x2048_S512x3_S2048x3_0_0_1_1_n_n.lhsNonContracting by decide)]
  rfl
theorem rhs_scatter_0 (i : S2048x3.Idx) (q : dot_S512x2048_S512x3_S2048x3_0_0_1_1_n_n.contr.Idx) :
    (dot_S512x2048_S512x3_S2048x3_0_0_1_1_n_n.rhsIdx i q 0).val = (q ⟨0, by decide⟩).val :=
  dot_S512x2048_S512x3_S2048x3_0_0_1_1_n_n.rhsIdx_val_of_single rfl i q
theorem rhs_scatter_1 (i : S2048x3.Idx) (q : dot_S512x2048_S512x3_S2048x3_0_0_1_1_n_n.contr.Idx) :
    (dot_S512x2048_S512x3_S2048x3_0_0_1_1_n_n.rhsIdx i q 1).val = (i 1).val := by
  unfold DotDims.rhsIdx
  rw [dif_neg (show ¬(1 : Fin S512x3.rank) ∈ dot_S512x2048_S512x3_S2048x3_0_0_1_1_n_n.rhsBatch by decide), dif_pos (show (1 : Fin S512x3.rank) ∈ dot_S512x2048_S512x3_S2048x3_0_0_1_1_n_n.rhsNonContracting by decide)]
  rfl
theorem matmul_scatter_apply (lhs : FVec Ideal S512x2048 .f32) (rhs : FVec Ideal S512x3 .f32) (p : Fin 2048) (c : Fin 3) :
    matmul dot_S512x2048_S512x3_S2048x3_0_0_1_1_n_n none lhs rhs (constant (F := Ideal) S2048x3 .f32 0x00000000#32) (ix2 p c)
      = ∑ j : Fin 512, lhs (ix2 j p) * rhs (ix2 j c) :=
  matmul_cols_cols_apply dot_S512x2048_S512x3_S2048x3_0_0_1_1_n_n rfl rfl lhs_scatter_0 lhs_scatter_1 rhs_scatter_0 rhs_scatter_1 lhs rhs p c

/-! ### The transposed indicator times a column of ones: `[512, 2048]ᵀ × [512, 1]` -/

theorem lhs_count_0 (i : S2048x1.Idx) (q : dot_S512x2048_S512x1_S2048x1_0_0_1_1_n_n.contr.Idx) :
    (dot_S512x2048_S512x1_S2048x1_0_0_1_1_n_n.lhsIdx i q 0).val = (q ⟨0, by decide⟩).val :=
  dot_S512x2048_S512x1_S2048x1_0_0_1_1_n_n.lhsIdx_val_of_single rfl i q
theorem lhs_count_1 (i : S2048x1.Idx) (q : dot_S512x2048_S512x1_S2048x1_0_0_1_1_n_n.contr.Idx) :
    (dot_S512x2048_S512x1_S2048x1_0_0_1_1_n_n.lhsIdx i q 1).val = (i 0).val := by
  unfold DotDims.lhsIdx
  rw [dif_neg (show ¬(1 : Fin S512x2048.rank) ∈ dot_S512x2048_S512x1_S2048x1_0_0_1_1_n_n.lhsBatch by decide), dif_pos (show (1 : Fin S512x2048.rank) ∈ dot_S512x2048_S512x1_S2048x1_0_0_1_1_n_n.lhsNonContracting by decide)]
  rfl
theorem rhs_count_0 (i : S2048x1.Idx) (q : dot_S512x2048_S512x1_S2048x1_0_0_1_1_n_n.contr.Idx) :
    (dot_S512x2048_S512x1_S2048x1_0_0_1_1_n_n.rhsIdx i q 0).val = (q ⟨0, by decide⟩).val :=
  dot_S512x2048_S512x1_S2048x1_0_0_1_1_n_n.rhsIdx_val_of_single rfl i q
theorem rhs_count_1 (i : S2048x1.Idx) (q : dot_S512x2048_S512x1_S2048x1_0_0_1_1_n_n.contr.Idx) :
    (dot_S512x2048_S512x1_S2048x1_0_0_1_1_n_n.rhsIdx i q 1).val = (i 1).val := by
  unfold DotDims.rhsIdx
  rw [dif_neg (show ¬(1 : Fin S512x1.rank) ∈ dot_S512x2048_S512x1_S2048x1_0_0_1_1_n_n.rhsBatch by decide), dif_pos (show (1 : Fin S512x1.rank) ∈ dot_S512x2048_S512x1_S2048x1_0_0_1_1_n_n.rhsNonContracting by decide)]
  rfl
theorem matmul_count_apply (lhs : FVec Ideal S512x2048 .f32) (rhs : FVec Ideal S512x1 .f32) (p : Fin 2048) (c : Fin 1) :
    matmul dot_S512x2048_S512x1_S2048x1_0_0_1_1_n_n none lhs rhs (constant (F := Ideal) S2048x1 .f32 0x00000000#32) (ix2 p c)
      = ∑ j : Fin 512, lhs (ix2 j p) * rhs (ix2 j c) :=
  matmul_cols_cols_apply dot_S512x2048_S512x1_S2048x1_0_0_1_1_n_n rfl rfl lhs_count_0 lhs_count_1 rhs_count_0 rhs_count_1 lhs rhs p c

/-! ## A comparison's bit as a float: 1 where the words agree, 0 elsewhere -/

/-- The bit of `a = b`, widened to 32 bits and converted as a signed integer, is the extended real 1 or 0. -/
theorem eqBit (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · have hb : IntOp.cmpi .eq a b = 1#1 := by simp [IntOp.cmpi, h]
    rw [if_pos h, hb]
    norm_num
  · have hb : IntOp.cmpi .eq a b = 0#1 := by
      show BitVec.ofBool (a == b) = 0#1
      rw [beq_eq_false_iff_ne.2 h]
      rfl
    rw [if_neg h, hb]
    norm_num

/-! ## The payloads -/

/-- A row of 512 words laid along the lanes: entry `(r, n)` of the broadcast column is word `r`. -/
theorem words_along_lanes (v : Vec Ideal S1x512 .i32) (r : Fin 512) (n : Fin 2048) :
    broadcastTo S512x2048 (shapeCast S512x1 (shapeCast S512 v shapeCasts_S1x512_S512) shapeCasts_S512_S512x1)
        broadcasts_S512x1_S512x2048 (ix2 r n) = v (ix2 (0 : Fin 1) r) :=
  (broadcastTo_a1_ab_apply _ broadcasts_S512x1_S512x2048 r n).trans
    ((shapeCast_a_a1_apply _ shapeCasts_S512_S512x1 r (0 : Fin 1)).trans (shapeCast_1a_a_apply v shapeCasts_S1x512_S512 r))

/-- the indicator matrix of a row of words -/
theorem onehot_apply (v5 : Vec Ideal S1x512 .i32) (r : Fin 512) (n : Fin 2048) :
    k0_pay4 (F := Ideal) v5 (ix2 r n) = if v5 (ix2 (0 : Fin 1) r) = BitVec.ofNat 32 n.val then (1 : EReal) else 0 := by
  unfold k0_pay4
  have hw := words_along_lanes v5 r n
  have hi : iota .tc S512x2048 32 [1] iota_S512x2048_d1_w32 (ix2 r n) = BitVec.ofNat 32 n.val :=
    iota_single_apply .tc S512x2048 32 1 iota_S512x2048_d1_w32 (ix2 r n)
  refine Eq.trans ?_ (eqBit (v5 (ix2 (0 : Fin 1) r)) (BitVec.ofNat 32 n.val))
  show FloatOps.sitofp (F := Ideal) .f32 ((IntOp.cmpi .eq _ _).setWidth 32) = _
  rw [hw, hi]

/-- the destination's features, gathered by the indicator -/
theorem gathered_dst (v5 : Vec Ideal S1x512 .i32) (v18 : Vec Ideal S2048x3 .f32) (r : Fin 512) (d : Fin 3)
    (h5 : (v5 (ix2 (0 : Fin 1) r)).toNat < 2048) :
    k0_pay5 (F := Ideal) v5 v18 (ix2 r d) = v18 (ix2 (node (v5 (ix2 (0 : Fin 1) r))) d) := by
  unfold k0_pay5
  refine (matmul_gather_apply (k0_pay4 (F := Ideal) v5) v18 r d).trans ?_
  refine Eq.trans (Finset.sum_congr rfl fun n _ => congrArg (· * v18 (ix2 n d)) (onehot_apply v5 r n)) ?_
  exact sum_indicator_mul h5 1 0 rfl rfl (fun n => v18 (ix2 n d))

/-- source minus destination -/
theorem gathered_diff (v3 v5 : Vec Ideal S1x512 .i32) (v18 : Vec Ideal S2048x3 .f32) (r : Fin 512) (d : Fin 3)
    (h3 : (v3 (ix2 (0 : Fin 1) r)).toNat < 2048) (h5 : (v5 (ix2 (0 : Fin 1) r)).toNat < 2048) :
    k0_pay6 (F := Ideal) v3 v5 v18 (ix2 r d)
      = v18 (ix2 (node (v3 (ix2 (0 : Fin 1) r))) d) - v18 (ix2 (node (v5 (ix2 (0 : Fin 1) r))) d) := by
  show k0_pay5 (F := Ideal) v3 v18 (ix2 r d) - k0_pay5 (F := Ideal) v5 v18 (ix2 r d) = _
  rw [gathered_dst v3 v18 r d h3, gathered_dst v5 v18 r d h5]

/-! ## The perceptron's layers as vectors over a block, and each read at a row -/

/-- A bias vector laid along the rows: entry `(r, k)` of the broadcast row is the bias at `k`. -/
theorem bias32_apply (b : Vec Ideal S32 .f32) (r : Fin 512) (k : Fin 32) :
    broadcastTo S512x32 (shapeCast S1x32 b shapeCasts_S32_S1x32) broadcasts_S1x32_S512x32 (ix2 r k) = b (ix1 k) :=
  (broadcastTo_1b_ab_apply _ broadcasts_S1x32_S512x32 r k).trans (shapeCast_a_1a_apply b shapeCasts_S32_S1x32 (0 : Fin 1) k)
theorem bias3_apply (b : Vec Ideal S3 .f32) (r : Fin 512) (d : Fin 3) :
    broadcastTo S512x3 (shapeCast S1x3 b shapeCasts_S3_S1x3) broadcasts_S1x3_S512x3 (ix2 r d) = b (ix1 d) :=
  (broadcastTo_1b_ab_apply _ broadcasts_S1x3_S512x3 r d).trans (shapeCast_a_1a_apply b shapeCasts_S3_S1x3 (0 : Fin 1) d)

/-- The first layer over a block: both halves' products, summed, plus the bias, rectified. -/
def hid1 (v19 v21 : FVec Ideal S512x3 .f32) (v23 v25 : FVec Ideal S3x32 .f32) (v26 : Vec Ideal S32 .f32) : FVec Ideal S512x32 .f32 :=
  maximumf
    (addf
      (addf (matmul dot_S512x3_S3x32_S512x32_1_0_0_1_n_n none v19 v23 (constant (F := Ideal) S512x32 .f32 0x00000000#32))
        (matmul dot_S512x3_S3x32_S512x32_1_0_0_1_n_n none v21 v25 (constant (F := Ideal) S512x32 .f32 0x00000000#32)))
      (broadcastTo S512x32 (shapeCast S1x32 v26 shapeCasts_S32_S1x32) broadcasts_S1x32_S512x32))
    (broadcast S512x32 (Scalar.ofBits (F := Ideal) .f32 0x00000000#32))

/-- A hidden layer over a block: the product plus the bias, rectified. -/
def hidN (h : FVec Ideal S512x32 .f32) (W : FVec Ideal S32x32 .f32) (b : Vec Ideal S32 .f32) : FVec Ideal S512x32 .f32 :=
  maximumf
    (addf (matmul dot_S512x32_S32x32_S512x32_1_0_0_1_n_n none h W (constant (F := Ideal) S512x32 .f32 0x00000000#32))
      (broadcastTo S512x32 (shapeCast S1x32 b shapeCasts_S32_S1x32) broadcasts_S1x32_S512x32))
    (broadcast S512x32 (Scalar.ofBits (F := Ideal) .f32 0x00000000#32))

/-- The last layer over a block: the product plus the bias. -/
def outL (h : FVec Ideal S512x32 .f32) (W : FVec Ideal S32x3 .f32) (b : Vec Ideal S3 .f32) : FVec Ideal S512x3 .f32 :=
  addf (matmul dot_S512x32_S32x3_S512x3_1_0_0_1_n_n none h W (constant (F := Ideal) S512x3 .f32 0x00000000#32))
    (broadcastTo S512x3 (shapeCast S1x3 b shapeCasts_S3_S1x3) broadcasts_S1x3_S512x3)

/-- The accumulator's update: what it held plus the transposed indicator times the messages. -/
def scat (v17 : FVec Ideal S512x2048 .f32) (msgs : FVec Ideal S512x3 .f32) (v60 : Vec Ideal S2048x3 .f32) : FVec Ideal S2048x3 .f32 :=
  shapeCast S2048x3
    (addf v60 (matmul dot_S512x2048_S512x3_S2048x3_0_0_1_1_n_n none v17 msgs (constant (F := Ideal) S2048x3 .f32 0x00000000#32)))
    shapeCasts_S2048x3_S2048x3

/-- The update payload is these four stages composed. -/
theorem k0_pay9_eq (v17 : FVec Ideal S512x2048 .f32) (v19 v21 : FVec Ideal S512x3 .f32) (v23 v25 : FVec Ideal S3x32 .f32)
    (v26 : Vec Ideal S32 .f32) (v27 : Vec Ideal S32x32 .f32) (v28 : Vec Ideal S32 .f32) (v29 : Vec Ideal S32x32 .f32) (v30 : Vec Ideal S32 .f32)
    (v31 : Vec Ideal S32x3 .f32) (v32 : Vec Ideal S3 .f32) (v60 : Vec Ideal S2048x3 .f32) :
    k0_pay9 (F := Ideal) v17 v19 v21 v23 v25 v26 v27 v28 v29 v30 v31 v32 (constant (F := Ideal) S512x32 .f32 0x00000000#32) v60
      = scat v17 (outL (hidN (hidN (hid1 v19 v21 v23 v25 v26) v27 v28) v29 v30) v31 v32) v60 := rfl

section Rows
variable (P : Params)

/-- The first layer at `(r, k)`. -/
theorem hid1_apply (v19 v21 : FVec Ideal S512x3 .f32) (v23 v25 : FVec Ideal S3x32 .f32) (v26 : Vec Ideal S32 .f32) (r : Fin 512) (k : Fin 32) :
    hid1 v19 v21 v23 v25 v26 (ix2 r k)
      = max ((∑ d : Fin 3, v19 (ix2 r d) * v23 (ix2 d k)) + (∑ d : Fin 3, v21 (ix2 r d) * v25 (ix2 d k)) + v26 (ix1 k)) zeroF := by
  unfold hid1
  show max ((matmul dot_S512x3_S3x32_S512x32_1_0_0_1_n_n none v19 v23 (constant (F := Ideal) S512x32 .f32 0x00000000#32) (ix2 r k)
        + matmul dot_S512x3_S3x32_S512x32_1_0_0_1_n_n none v21 v25 (constant (F := Ideal) S512x32 .f32 0x00000000#32) (ix2 r k))
      + broadcastTo S512x32 (shapeCast S1x32 v26 shapeCasts_S32_S1x32) broadcasts_S1x32_S512x32 (ix2 r k)) zeroF = _
  rw [matmul_first_apply v19 v23 r k, matmul_first_apply v21 v25 r k, bias32_apply v26 r k]

/-- The first layer at row `r` is the specification's first layer of that row's two feature triples. -/
theorem hid1_row (v19 v21 : FVec Ideal S512x3 .f32) (v23 v25 : FVec Ideal S3x32 .f32) (v26 : Vec Ideal S32 .f32)
    (hA : ∀ (d : Fin 3) (k : Fin 32), v23 (ix2 d k) = P.W1 (ix2 (⟨d.val, by omega⟩ : Fin 6) k))
    (hB : ∀ (d : Fin 3) (k : Fin 32), v25 (ix2 d k) = P.W1 (ix2 (⟨d.val + 3, by omega⟩ : Fin 6) k))
    (h26 : v26 = P.b1) (r : Fin 512) :
    (fun k : Fin 32 => hid1 v19 v21 v23 v25 v26 (ix2 r k)) = layer1 P (fun d => v19 (ix2 r d)) (fun d => v21 (ix2 r d)) := by
  funext k
  subst h26
  refine (hid1_apply v19 v21 v23 v25 _ r k).trans ?_
  unfold layer1
  simp only [hA, hB]

/-- A hidden layer at row `r`. -/
theorem hidN_row (h : FVec Ideal S512x32 .f32) (W : FVec Ideal S32x32 .f32) (b : Vec Ideal S32 .f32) (r : Fin 512) (k : Fin 32) :
    hidN h W b (ix2 r k) = max ((∑ j : Fin 32, h (ix2 r j) * W (ix2 j k)) + b (ix1 k)) zeroF := by
  unfold hidN
  show max (matmul dot_S512x32_S32x32_S512x32_1_0_0_1_n_n none h W (constant (F := Ideal) S512x32 .f32 0x00000000#32) (ix2 r k)
      + broadcastTo S512x32 (shapeCast S1x32 b shapeCasts_S32_S1x32) broadcasts_S1x32_S512x32 (ix2 r k)) zeroF = _
  rw [matmul_hidden_apply h W r k, bias32_apply b r k]

theorem hidN_row2 (h : FVec Ideal S512x32 .f32) (v27 : Vec Ideal S32x32 .f32) (v28 : Vec Ideal S32 .f32)
    (h27 : v27 = P.W2) (h28 : v28 = P.b2) (r : Fin 512) :
    (fun k : Fin 32 => hidN h v27 v28 (ix2 r k)) = layer2 P (fun j => h (ix2 r j)) := by
  funext k
  subst h27 h28
  exact hidN_row h _ _ r k

theorem hidN_row3 (h : FVec Ideal S512x32 .f32) (v29 : Vec Ideal S32x32 .f32) (v30 : Vec Ideal S32 .f32)
    (h29 : v29 = P.W3) (h30 : v30 = P.b3) (r : Fin 512) :
    (fun k : Fin 32 => hidN h v29 v30 (ix2 r k)) = layer3 P (fun j => h (ix2 r j)) := by
  funext k
  subst h29 h30
  exact hidN_row h _ _ r k

/-- The last layer at `(r, d)`. -/
theorem outL_apply (h : FVec Ideal S512x32 .f32) (W : FVec Ideal S32x3 .f32) (b : Vec Ideal S3 .f32) (r : Fin 512) (d : Fin 3) :
    outL h W b (ix2 r d) = (∑ j : Fin 32, h (ix2 r j) * W (ix2 j d)) + b (ix1 d) := by
  unfold outL
  show matmul dot_S512x32_S32x3_S512x3_1_0_0_1_n_n none h W (constant (F := Ideal) S512x3 .f32 0x00000000#32) (ix2 r d)
      + broadcastTo S512x3 (shapeCast S1x3 b shapeCasts_S3_S1x3) broadcasts_S1x3_S512x3 (ix2 r d) = _
  rw [matmul_last_apply h W r d, bias3_apply b r d]

/-- The last layer at row `r`. -/
theorem outL_row (h : FVec Ideal S512x32 .f32) (v31 : Vec Ideal S32x3 .f32) (v32 : Vec Ideal S3 .f32)
    (h31 : v31 = P.W4) (h32 : v32 = P.b4) (r : Fin 512) :
    (fun d : Fin 3 => outL h v31 v32 (ix2 r d)) = layer4 P (fun j => h (ix2 r j)) := by
  funext d
  subst h31 h32
  exact outL_apply h _ _ r d

end Rows

/-- The accumulator's update at `(n, d)`. -/
theorem scat_apply (v17 : FVec Ideal S512x2048 .f32) (msgs : FVec Ideal S512x3 .f32) (v60 : Vec Ideal S2048x3 .f32)
    (n : Fin 2048) (d : Fin 3) :
    scat v17 msgs v60 (ix2 n d) = v60 (ix2 n d) + ∑ r : Fin 512, v17 (ix2 r n) * msgs (ix2 r d) := by
  unfold scat
  rw [shapeCast_self]
  show v60 (ix2 n d) + matmul dot_S512x2048_S512x3_S2048x3_0_0_1_1_n_n none v17 msgs (constant (F := Ideal) S2048x3 .f32 0x00000000#32) (ix2 n d) = _
  rw [matmul_scatter_apply v17 msgs n d]

/-- the accumulator after a block: what it held plus the indicator-weighted messages of the block's 512 edges -/
theorem acc_sum_apply (P : Params) (v17 : FVec Ideal S512x2048 .f32) (v19 v21 : FVec Ideal S512x3 .f32) (v23 v25 : FVec Ideal S3x32 .f32)
    (v26 : Vec Ideal S32 .f32) (v27 : Vec Ideal S32x32 .f32) (v28 : Vec Ideal S32 .f32) (v29 : Vec Ideal S32x32 .f32) (v30 : Vec Ideal S32 .f32)
    (v31 : Vec Ideal S32x3 .f32) (v32 : Vec Ideal S3 .f32) (v60 : Vec Ideal S2048x3 .f32)
    (hA : ∀ (d : Fin 3) (k : Fin 32), v23 (ix2 d k) = P.W1 (ix2 (⟨d.val, by omega⟩ : Fin 6) k))
    (hB : ∀ (d : Fin 3) (k : Fin 32), v25 (ix2 d k) = P.W1 (ix2 (⟨d.val + 3, by omega⟩ : Fin 6) k))
    (h26 : v26 = P.b1) (h27 : v27 = P.W2) (h28 : v28 = P.b2) (h29 : v29 = P.W3) (h30 : v30 = P.b3) (h31 : v31 = P.W4) (h32 : v32 = P.b4)
    (n : Fin 2048) (d : Fin 3) :
    k0_pay9 (F := Ideal) v17 v19 v21 v23 v25 v26 v27 v28 v29 v30 v31 v32 (constant (F := Ideal) S512x32 .f32 0x00000000#32) v60 (ix2 n d)
      = v60 (ix2 n d) + ∑ r : Fin 512, v17 (ix2 r n) * mlp P (fun d' => v19 (ix2 r d')) (fun d' => v21 (ix2 r d')) d := by
  rw [k0_pay9_eq, scat_apply]
  refine congrArg (v60 (ix2 n d) + ·) (Finset.sum_congr rfl fun r _ => congrArg (v17 (ix2 r n) * ·) ?_)
  have e1 := hid1_row P v19 v21 v23 v25 v26 hA hB h26 r
  have e2 := hidN_row2 P (hid1 v19 v21 v23 v25 v26) v27 v28 h27 h28 r
  have e3 := hidN_row3 P (hidN (hid1 v19 v21 v23 v25 v26) v27 v28) v29 v30 h29 h30 r
  have e4 := outL_row P (hidN (hidN (hid1 v19 v21 v23 v25 v26) v27 v28) v29 v30) v31 v32 h31 h32 r
  refine (congrFun e4 d).trans ?_
  unfold mlp
  rw [e3, e2, e1]

/-- the counter after a block -/
theorem acc_count_apply (v17 : FVec Ideal S512x2048 .f32) (v65 : Vec Ideal S2048x1 .f32) (n : Fin 2048) :
    k0_pay10 (F := Ideal) v17 v65 (ix2 n (0 : Fin 1)) = v65 (ix2 n (0 : Fin 1)) + ∑ r : Fin 512, v17 (ix2 r n) * oneF := by
  unfold k0_pay10
  rw [shapeCast_self]
  show v65 (ix2 n (0 : Fin 1)) + matmul dot_S512x2048_S512x1_S2048x1_0_0_1_1_n_n none v17
      (broadcast S512x1 (Scalar.ofBits (F := Ideal) .f32 0x3F800000#32)) (constant (F := Ideal) S2048x1 .f32 0x00000000#32) (ix2 n (0 : Fin 1)) = _
  rw [matmul_count_apply v17 _ n (0 : Fin 1)]
  rfl

/-- the mean -/
theorem mean_apply (v73 : Vec Ideal S2048x3 .f32) (v74 : Vec Ideal S2048x1 .f32) (n : Fin 2048) (d : Fin 3) :
    k0_pay1 (F := Ideal) v73 v74 (ix2 n d) = Ideal.div (v73 (ix2 n d)) (max (v74 (ix2 n (0 : Fin 1))) oneF) := by
  unfold k0_pay1
  show Ideal.div (v73 (ix2 n d)) (broadcastTo S2048x3 (maximumf v74 (broadcast S2048x1 (Scalar.ofBits (F := Ideal) .f32 0x3F800000#32)))
      broadcasts_S2048x1_S2048x3 (ix2 n d)) = _
  rw [broadcastTo_a1_ab_apply _ broadcasts_S2048x1_S2048x3 n d]
  rfl

/-- the resets are zero -/
theorem reset_sum_apply (i : S2048x3.Idx) : (k0_pay2 (F := Ideal)) i = 0 := by
  unfold k0_pay2
  rw [shapeCast_self]
  exact Ideal.ofBits_zero_f32
theorem reset_count_apply (i : S2048x1.Idx) : (k0_pay3 (F := Ideal)) i = 0 := by
  unfold k0_pay3
  rw [shapeCast_self]
  exact Ideal.ofBits_zero_f32

end Cert.KernelIdeal.Payloads

end
-- ==== Proof.KernelPointValue.lean ====
/-
  ONE BLOCK OF 512 EDGES, at the ideal values and at one node.

  The accumulator update of a block reads the edge block only through its two rows. Under the hypothesis that every
  word of the block is below 2048, the indicator products select rows of the node features: the destination's features
  and the difference of the source's and the destination's. So the update of the message sums at node p and feature d is
  what was there plus the sum over the block's rows r of [destination word r is the word of p] times the message of the
  edge in row r, and the update of the counts is what was there plus the same indicators times one.
-/
import proofs.«413416_j73040213836197_1_alg».proof.Proof.KernelPieces
import proofs.«413416_j73040213836197_1_alg».proof.Proof.KernelPayloads
import Idealize.ShloMosaic.Lib.ValueIdx

noncomputable section

open Idealize.ShloMosaic Idealize.ShloMosaic.TcCoe Idealize.SL.Sem
open scoped BigOperators

namespace Cert.KernelIdeal.PointValue

open Cert.KernelIdeal Cert.KernelIdeal.Gen Cert.KernelIdeal.Pieces Cert.KernelIdeal.Payloads Idealize.ShloMosaic.ValueIdx EdgeConv

/-- Row 0 of an edge block at lane r is the block's entry (0, r). -/
theorem srcRow_apply (x0 : Vec Ideal S2x512 .i32) (r : Fin 512) : srcRow x0 (ix2 (0 : Fin 1) r) = x0 (ix2 (0 : Fin 2) r) := by
  show x0 _ = x0 _
  refine congrArg x0 (funext fun a => Fin.ext ?_)
  match a with
  | ⟨0, _⟩ => rfl
  | ⟨1, _⟩ => show 0 + 1 * r.val = r.val; omega

/-- Row 1 of an edge block at lane r is the block's entry (1, r). -/
theorem dstRow_apply (x0 : Vec Ideal S2x512 .i32) (r : Fin 512) : dstRow x0 (ix2 (0 : Fin 1) r) = x0 (ix2 (1 : Fin 2) r) := by
  show x0 _ = x0 _
  refine congrArg x0 (funext fun a => Fin.ext ?_)
  match a with
  | ⟨0, _⟩ => rfl
  | ⟨1, _⟩ => show 0 + 1 * r.val = r.val; omega

/-- ONE BLOCK'S UPDATE OF THE MESSAGE SUMS at node p, feature d: what was there, plus, for each of the block's 512 edges, the
    indicator that its destination is p times its message. -/
theorem addSums_apply (P : Params) (x0 : Vec Ideal S2x512 .i32) (x1 : Vec Ideal S2048x3 .f32) (x2 x3 : Vec Ideal S3x32 .f32)
    (x4 : Vec Ideal S32 .f32) (x5 : Vec Ideal S32x32 .f32) (x6 : Vec Ideal S32 .f32) (x7 : Vec Ideal S32x32 .f32) (x8 : Vec Ideal S32 .f32)
    (x9 : Vec Ideal S32x3 .f32) (x10 : Vec Ideal S3 .f32) (acc : Vec Ideal S2048x3 .f32)
    (hA : ∀ (d : Fin 3) (k : Fin 32), x2 (ix2 d k) = P.W1 (ix2 (⟨d.val, by omega⟩ : Fin 6) k))
    (hB : ∀ (d : Fin 3) (k : Fin 32), x3 (ix2 d k) = P.W1 (ix2 (⟨d.val + 3, by omega⟩ : Fin 6) k))
    (h4 : x4 = P.b1) (h5 : x5 = P.W2) (h6 : x6 = P.b2) (h7 : x7 = P.W3) (h8 : x8 = P.b3) (h9 : x9 = P.W4) (h10 : x10 = P.b4)
    (hr : ∀ (a : Fin 2) (r : Fin 512), (x0 (ix2 a r)).toNat < 2048) (p : Fin 2048) (d : Fin 3) :
    addSums x0 x1 x2 x3 x4 x5 x6 x7 x8 x9 x10 acc (ix2 p d)
      = acc (ix2 p d) + ∑ r : Fin 512, (if x0 (ix2 (1 : Fin 2) r) = BitVec.ofNat 32 p.val then (1 : EReal) else 0)
          * mlp P (fun d' => x1 (ix2 (node (x0 (ix2 (1 : Fin 2) r))) d'))
              (fun d' => x1 (ix2 (node (x0 (ix2 (0 : Fin 2) r))) d') - x1 (ix2 (node (x0 (ix2 (1 : Fin 2) r))) d')) d := by
  unfold addSums
  have hA' : ∀ (d : Fin 3) (k : Fin 32), k0_pay7 (F := Ideal) x2 (ix2 d k) = P.W1 (ix2 (⟨d.val, by omega⟩ : Fin 6) k) := fun d k => by
    unfold k0_pay7; rw [shapeCast_self]; exact hA d k
  have hB' : ∀ (d : Fin 3) (k : Fin 32), k0_pay8 (F := Ideal) x3 (ix2 d k) = P.W1 (ix2 (⟨d.val + 3, by omega⟩ : Fin 6) k) := fun d k => by
    unfold k0_pay8; rw [shapeCast_self]; exact hB d k
  refine (acc_sum_apply P (k0_pay4 (F := Ideal) (dstRow x0)) (k0_pay5 (F := Ideal) (dstRow x0) x1) (k0_pay6 (F := Ideal) (srcRow x0) (dstRow x0) x1)
    (k0_pay7 (F := Ideal) x2) (k0_pay8 (F := Ideal) x3) x4 x5 x6 x7 x8 x9 x10 acc hA' hB' h4 h5 h6 h7 h8 h9 h10 p d).trans ?_
  refine congrArg (acc (ix2 p d) + ·) (Finset.sum_congr rfl fun r _ => ?_)
  have e1 : dstRow x0 (ix2 (0 : Fin 1) r) = x0 (ix2 (1 : Fin 2) r) := dstRow_apply x0 r
  have e0 : srcRow x0 (ix2 (0 : Fin 1) r) = x0 (ix2 (0 : Fin 2) r) := srcRow_apply x0 r
  have b1 : (dstRow x0 (ix2 (0 : Fin 1) r)).toNat < 2048 := by rw [e1]; exact hr 1 r
  have b0 : (srcRow x0 (ix2 (0 : Fin 1) r)).toNat < 2048 := by rw [e0]; exact hr 0 r
  rw [onehot_apply, e1]
  refine congrArg ((if x0 (ix2 (1 : Fin 2) r) = BitVec.ofNat 32 p.val then (1 : EReal) else 0) * ·) ?_
  refine congrArg (fun f : Fin 3 → EReal => f d) ?_
  refine congr (congrArg (mlp P) (funext fun d' => ?_)) (funext fun d' => ?_)
  · rw [gathered_dst (dstRow x0) x1 r d' b1, e1]
  · rw [gathered_diff (srcRow x0) (dstRow x0) x1 r d' b0 b1, e0, e1]

/-- ONE BLOCK'S UPDATE OF THE COUNTS at node p. -/
theorem addCount_apply (x0 : Vec Ideal S2x512 .i32) (acc : Vec Ideal S2048x1 .f32) (p : Fin 2048) :
    addCount x0 acc (ix2 p (0 : Fin 1))
      = acc (ix2 p (0 : Fin 1)) + ∑ r : Fin 512, (if x0 (ix2 (1 : Fin 2) r) = BitVec.ofNat 32 p.val then (1 : EReal) else 0) * oneF := by
  unfold addCount
  refine (acc_count_apply (k0_pay4 (F := Ideal) (dstRow x0)) acc p).trans ?_
  refine congrArg (acc (ix2 p (0 : Fin 1)) + ·) (Finset.sum_congr rfl fun r _ => ?_)
  rw [onehot_apply, dstRow_apply]

end Cert.KernelIdeal.PointValue

end
-- ==== Proof.KernelBlocks.lean ====
/-
  WHAT EACH INPUT WINDOW OF THE KERNEL'S PIPELINE STAGES AT A GRID POINT, read off the argument arrays.

  The grid is one axis of 8188 points. Window 0 stages the int32[2, 4192256] edge array in blocks of extents (2, 512)
  at block index (0, t): block t holds, at (a, r), the array's word at (a, 512 t + r). Windows 1 and 4 … 10 stage the
  node features and the last seven weight and bias arrays whole, at block index zero: the block IS the array. Windows 2
  and 3 stage whole the two 3 × 32 arrays the host slices off the 6 × 32 first-layer matrix before the region — rows
  0..2 and rows 3..5 — so their blocks at (d, k) are the matrix at (d, k) and at (d + 3, k).

  In every case the block's coordinate inside the array is (block index) · (block size) + 1 · (coordinate inside the
  block), axis by axis; the block indices are 0, and t on the edge array's long axis.
-/
import proofs.«413416_j73040213836197_1_alg».proof.Proof.Gen.KernelIdeal.Frame.Runs
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-! ## The edge window: block t is columns 512 t … 512 t + 511 of both rows -/

/-- Row r of block t is an edge of the array: 512 · 8187 + 511 < 4192256. -/
theorem edge_lt (t : Fin cfg0.N) (r : Fin 512) : 512 * t.val + r.val < 4192256 := by
  have hN : cfg0.N = 8188 := N_0
  have := t.isLt
  have := r.isLt
  omega

/-- The edge window's block index at grid point t is (0, t): its index map returns the constant 0 and the grid
    coordinate, each as a 32-bit word read back as a natural number (decided over the 8188 grid points). -/
theorem idx_edges : ∀ t : Fin cfg0.N, win0_0.index t 0 = 0 ∧ win0_0.index t 1 = t.val :=
  (by decide +kernel : ∀ t : Fin grid0.N, win0_0.index t 0 = 0 ∧ win0_0.index t 1 = t.val)

/-- Block t of the edge array at (a, r) is the array at (a, 512 t + r): a block's coordinate in the array is the block
    index times the block size plus the coordinate inside the block. -/
theorem edges_block (c : Dev nD) (t : Fin cfg0.N) (a : Fin 2) (r : Fin 512) :
    (iblk m c 0 t : Vec F S2x512 .i32) (ix2 a r) = m ((c : Thread nD τ).loc main_arg1) (ix2 a (⟨512 * t.val + r.val, edge_lt t r⟩ : Fin 4192256)) := by
  unfold iblk
  rw [View.read_apply]
  show V m c main_arg1 _ = _
  rw [V_main_arg1]
  congr 1
  funext b
  apply Fin.ext
  match b with
  | ⟨0, _⟩ => show win0_0.index t 0 * 2 + 1 * a.val = a.val; rw [(idx_edges t).1]; omega
  | ⟨1, _⟩ => show win0_0.index t 1 * 512 + 1 * r.val = 512 * t.val + r.val; rw [(idx_edges t).2]; omega

/-! ## The whole-array windows: the one block, at block index zero, is the array

Each of these windows has the array's own extents as its block and a constant-zero index map, so the block's
coordinate j sits at 0 · size + 1 · j = j of the array; and no host operation before the region writes the array. -/

theorem x_block (c : Dev nD) (t : Fin cfg0.N) : (iblk m c 1 t : Vec F S2048x3 .f32) = m ((c : Thread nD τ).loc main_arg0) := by
  funext j
  unfold iblk
  rw [View.read_apply]
  show V m c main_arg0 _ = _
  rw [V_main_arg0]
  congr 1
  funext b
  apply Fin.ext
  match b with
  | ⟨0, _⟩ => show win0_1.index t 0 * 2048 + 1 * (j 0).val = (j 0).val; rw [show win0_1.index t 0 = 0 from rfl]; omega
  | ⟨1, _⟩ => show win0_1.index t 1 * 3 + 1 * (j 1).val = (j 1).val; rw [show win0_1.index t 1 = 0 from rfl]; omega

/-! ## The two halves of the first layer's matrix

Before the region the host cuts the 6 × 32 matrix into rows 0..2 and rows 3..5; windows 2 and 3 stage those two
3 × 32 arrays whole. A slice read at (d, k) is the matrix at (d + offset, k). -/

/-- The first host slice: rows 0..2 of the matrix. -/
theorem v0_eq (c : Dev nD) : (V m c main_v0 : S3x32.Idx → Elt F .f32)
    = extractStridedSlice S3x32 ![0, 0] (m ((c : Thread nD τ).loc main_arg2)) slices_S6x32_S3x32_0_0 := by
  dsimp only [Gen.V, Gen.hostOps0]; after_results

/-- The second host slice: rows 3..5 of the matrix. -/
theorem v1_eq (c : Dev nD) : (V m c main_v1 : S3x32.Idx → Elt F .f32)
    = extractStridedSlice S3x32 ![3, 0] (m ((c : Thread nD τ).loc main_arg2)) slices_S6x32_S3x32_3_0 := by
  dsimp only [Gen.V, Gen.hostOps0]; after_results

theorem w1a_block (c : Dev nD) (t : Fin cfg0.N) (d : Fin 3) (k : Fin 32) :
    (iblk m c 2 t : Vec F S3x32 .f32) (ix2 d k) = m ((c : Thread nD τ).loc main_arg2) (ix2 (⟨d.val, by omega⟩ : Fin 6) k) := by
  unfold iblk
  rw [View.read_apply]
  show V m c main_v0 _ = _
  rw [v0_eq]
  refine extractStridedSlice_apply _ _ _ _ _ fun b => ?_
  match b with
  | ⟨0, _⟩ => show d.val = 0 + (win0_2.index t 0 * 3 + 1 * d.val); rw [show win0_2.index t 0 = 0 from rfl]; omega
  | ⟨1, _⟩ => show k.val = 0 + (win0_2.index t 1 * 32 + 1 * k.val); rw [show win0_2.index t 1 = 0 from rfl]; omega

theorem w1b_block (c : Dev nD) (t : Fin cfg0.N) (d : Fin 3) (k : Fin 32) :
    (iblk m c 3 t : Vec F S3x32 .f32) (ix2 d k) = m ((c : Thread nD τ).loc main_arg2) (ix2 (⟨d.val + 3, by omega⟩ : Fin 6) k) := by
  unfold iblk
  rw [View.read_apply]
  show V m c main_v1 _ = _
  rw [v1_eq]
  refine extractStridedSlice_apply _ _ _ _ _ fun b => ?_
  match b with
  | ⟨0, _⟩ => show d.val + 3 = 3 + (win0_3.index t 0 * 3 + 1 * d.val); rw [show win0_3.index t 0 = 0 from rfl]; omega
  | ⟨1, _⟩ => show k.val = 0 + (win0_3.index t 1 * 32 + 1 * k.val); rw [show win0_3.index t 1 = 0 from rfl]; omega

/-! ## The remaining weights and biases, whole -/

theorem b1_block (c : Dev nD) (t : Fin cfg0.N) : (iblk m c 4 t : Vec F S32 .f32) = m ((c : Thread nD τ).loc main_arg3) := by
  funext j
  unfold iblk
  rw [View.read_apply]
  show V m c main_arg3 _ = _
  rw [V_main_arg3]
  congr 1
  funext b
  apply Fin.ext
  match b with
  | ⟨0, _⟩ => show win0_4.index t 0 * 32 + 1 * (j 0).val = (j 0).val; rw [show win0_4.index t 0 = 0 from rfl]; omega

theorem w2_block (c : Dev nD) (t : Fin cfg0.N) : (iblk m c 5 t : Vec F S32x32 .f32) = m ((c : Thread nD τ).loc main_arg4) := by
  funext j
  unfold iblk
  rw [View.read_apply]
  show V m c main_arg4 _ = _
  rw [V_main_arg4]
  congr 1
  funext b
  apply Fin.ext
  match b with
  | ⟨0, _⟩ => show win0_5.index t 0 * 32 + 1 * (j 0).val = (j 0).val; rw [show win0_5.index t 0 = 0 from rfl]; omega
  | ⟨1, _⟩ => show win0_5.index t 1 * 32 + 1 * (j 1).val = (j 1).val; rw [show win0_5.index t 1 = 0 from rfl]; omega

theorem b2_block (c : Dev nD) (t : Fin cfg0.N) : (iblk m c 6 t : Vec F S32 .f32) = m ((c : Thread nD τ).loc main_arg5) := by
  funext j
  unfold iblk
  rw [View.read_apply]
  show V m c main_arg5 _ = _
  rw [V_main_arg5]
  congr 1
  funext b
  apply Fin.ext
  match b with
  | ⟨0, _⟩ => show win0_6.index t 0 * 32 + 1 * (j 0).val = (j 0).val; rw [show win0_6.index t 0 = 0 from rfl]; omega

theorem w3_block (c : Dev nD) (t : Fin cfg0.N) : (iblk m c 7 t : Vec F S32x32 .f32) = m ((c : Thread nD τ).loc main_arg6) := by
  funext j
  unfold iblk
  rw [View.read_apply]
  show V m c main_arg6 _ = _
  rw [V_main_arg6]
  congr 1
  funext b
  apply Fin.ext
  match b with
  | ⟨0, _⟩ => show win0_7.index t 0 * 32 + 1 * (j 0).val = (j 0).val; rw [show win0_7.index t 0 = 0 from rfl]; omega
  | ⟨1, _⟩ => show win0_7.index t 1 * 32 + 1 * (j 1).val = (j 1).val; rw [show win0_7.index t 1 = 0 from rfl]; omega

theorem b3_block (c : Dev nD) (t : Fin cfg0.N) : (iblk m c 8 t : Vec F S32 .f32) = m ((c : Thread nD τ).loc main_arg7) := by
  funext j
  unfold iblk
  rw [View.read_apply]
  show V m c main_arg7 _ = _
  rw [V_main_arg7]
  congr 1
  funext b
  apply Fin.ext
  match b with
  | ⟨0, _⟩ => show win0_8.index t 0 * 32 + 1 * (j 0).val = (j 0).val; rw [show win0_8.index t 0 = 0 from rfl]; omega

theorem w4_block (c : Dev nD) (t : Fin cfg0.N) : (iblk m c 9 t : Vec F S32x3 .f32) = m ((c : Thread nD τ).loc main_arg8) := by
  funext j
  unfold iblk
  rw [View.read_apply]
  show V m c main_arg8 _ = _
  rw [V_main_arg8]
  congr 1
  funext b
  apply Fin.ext
  match b with
  | ⟨0, _⟩ => show win0_9.index t 0 * 32 + 1 * (j 0).val = (j 0).val; rw [show win0_9.index t 0 = 0 from rfl]; omega
  | ⟨1, _⟩ => show win0_9.index t 1 * 3 + 1 * (j 1).val = (j 1).val; rw [show win0_9.index t 1 = 0 from rfl]; omega

theorem b4_block (c : Dev nD) (t : Fin cfg0.N) : (iblk m c 10 t : Vec F S3 .f32) = m ((c : Thread nD τ).loc main_arg9) := by
  funext j
  unfold iblk
  rw [View.read_apply]
  show V m c main_arg9 _ = _
  rw [V_main_arg9]
  congr 1
  funext b
  apply Fin.ext
  match b with
  | ⟨0, _⟩ => show win0_10.index t 0 * 3 + 1 * (j 0).val = (j 0).val; rw [show win0_10.index t 0 = 0 from rfl]; omega

end Cert.KernelIdeal.Blocks

end
-- ==== Proof.EdgeConvTotals.lean ====
/-
  THE BLOCK-BY-BLOCK ACCUMULATION IS THE SPECIFICATION'S FILTERED SUMS.

  The 4192256 edges are visited in 8188 blocks of 512.  Block s adds to node p, feature d, the sum over its 512 rows r of
  [the destination word of edge (s, r) is the word of p] * msg (s, r) d, and to node p's count the same indicator times
  one.  Summed over the blocks these addends are the sum over all edges of the indicator multiples (block by block is edge
  by edge), which is the sum over the edges the indicator keeps (0 * a = 0, 1 * a = a).  When every word of the edge
  array is below 2048, "the destination word is the word of p" says exactly "the destination node is p", so the edges
  kept are the edges arriving at p: the totals are msgSum and msgCount.

  An addend is defined for every natural number s and is zero past the last block, so that a running total can be
  indexed by a plain counter.
-/
import proofs.«413416_j73040213836197_1_alg».proof.Proof.EdgeConvSpec
import Mathlib.Algebra.BigOperators.Fin
import Mathlib.Algebra.BigOperators.Group.Finset.Basic

noncomputable section

open scoped BigOperators

namespace EdgeConv

open Idealize.ShloMosaic Idealize.ShloMosaic.ValueIdx

section Totals
variable (P : Params) (x : (⟨2, ![2048, 3]⟩ : Shape).Idx → EReal) (ei : (⟨2, ![2, 4192256]⟩ : Shape).Idx → BitVec 32)

/-- point s's addend to the message sums at node p, feature d (zero past the grid) -/
def blockSum (s : Nat) (p : Fin 2048) (d : Fin 3) : EReal :=
  if h : s < 8188 then ∑ r : Fin 512, (if ei (ix2 (1 : Fin 2) (edgeAt ⟨s, h⟩ r)) = BitVec.ofNat 32 p.val then (1 : EReal) else 0) * msg P x ei (edgeAt ⟨s, h⟩ r) d else 0

/-- point s's addend to the counts at node p -/
def blockCount (s : Nat) (p : Fin 2048) : EReal :=
  if h : s < 8188 then ∑ r : Fin 512, (if ei (ix2 (1 : Fin 2) (edgeAt ⟨s, h⟩ r)) = BitVec.ofNat 32 p.val then (1 : EReal) else 0) * oneF else 0

/-- The sum over the blocks of the indicator multiples of any per-edge quantity f is the sum of f over the edges arriving
    at p, when every word of the edge array names a node. -/
theorem sum_blocks_indicator (hR : ∀ (a : Fin 2) (e : Fin 4192256), (ei (ix2 a e)).toNat < 2048) (p : Fin 2048)
    (f : Fin 4192256 → EReal) :
    ∑ t : Fin 8188, ∑ r : Fin 512,
        (if ei (ix2 (1 : Fin 2) (edgeAt t r)) = BitVec.ofNat 32 p.val then (1 : EReal) else 0) * f (edgeAt t r)
      = ∑ e ∈ Finset.univ.filter (fun e : Fin 4192256 => dstN ei e = p), f e := by
  rw [sum_blocks (f := fun e => (if ei (ix2 (1 : Fin 2) e) = BitVec.ofNat 32 p.val then (1 : EReal) else 0) * f e),
    sum_indicator_filter (fun e : Fin 4192256 => ei (ix2 (1 : Fin 2) e) = BitVec.ofNat 32 p.val) 1 0 rfl rfl f]
  refine Finset.sum_congr (Finset.filter_congr fun e _ => ?_) fun _ _ => rfl
  exact eq_ofNat_iff_node (hR 1 e) p

theorem sum_blockSum (hR : ∀ (a : Fin 2) (e : Fin 4192256), (ei (ix2 a e)).toNat < 2048) (p : Fin 2048) (d : Fin 3) :
    ∑ s ∈ Finset.range 8188, blockSum P x ei s p d = msgSum P x ei p d := by
  rw [Finset.sum_range (fun s => blockSum P x ei s p d)]
  have hb : ∀ t : Fin 8188, blockSum P x ei t.val p d
      = ∑ r : Fin 512, (if ei (ix2 (1 : Fin 2) (edgeAt t r)) = BitVec.ofNat 32 p.val then (1 : EReal) else 0)
          * (fun e => msg P x ei e d) (edgeAt t r) := by
    intro t
    unfold blockSum
    rw [dif_pos t.isLt]
  rw [Finset.sum_congr rfl fun t _ => hb t, sum_blocks_indicator ei hR p (fun e => msg P x ei e d)]
  rfl

theorem sum_blockCount (hR : ∀ (a : Fin 2) (e : Fin 4192256), (ei (ix2 a e)).toNat < 2048) (p : Fin 2048) :
    ∑ s ∈ Finset.range 8188, blockCount ei s p = msgCount ei p := by
  rw [Finset.sum_range (fun s => blockCount ei s p)]
  have hb : ∀ t : Fin 8188, blockCount ei t.val p
      = ∑ r : Fin 512, (if ei (ix2 (1 : Fin 2) (edgeAt t r)) = BitVec.ofNat 32 p.val then (1 : EReal) else 0)
          * (fun _ => oneF) (edgeAt t r) := by
    intro t
    unfold blockCount
    rw [dif_pos t.isLt]
  rw [Finset.sum_congr rfl fun t _ => hb t, sum_blocks_indicator ei hR p (fun _ => oneF)]
  rfl

end Totals

end EdgeConv

end
-- ==== Proof.KernelValue.lean ====
/-
  THE KERNEL'S RESULT ARRAY IS THE MEAN MESSAGE.

  The grid has 8188 points; point t stages edges 512 t .. 512 t + 511 and every other argument whole. Two accumulators are
  carried from point to point: after point n the first holds, at node p and feature d, the sum over the points s ≤ n of
  that point's addend (the indicator-weighted messages of its 512 edges), and the second the sum of the counting addends;
  both start from zero at point 0. This is an induction over the points, read off the fold the run's frame states.
  After the last point the sums range over all 8188 blocks, that is over all edges (block by block is edge by edge), and
  the indicator sums are the sums over the edges arriving at p. The last point writes the quotient by max(count, 1) to the
  result array, whose single block is the whole array.
-/
import proofs.«413416_j73040213836197_1_alg».proof.Proof.Gen.KernelIdeal.Value
import proofs.«413416_j73040213836197_1_alg».proof.Proof.KernelPointValue
import proofs.«413416_j73040213836197_1_alg».proof.Proof.KernelBlocks
import proofs.«413416_j73040213836197_1_alg».proof.Proof.EdgeConvTotals
import Idealize.ShloMosaic.Lib.Pipeline.Value

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen Cert.KernelIdeal.Pieces Cert.KernelIdeal.Payloads Cert.KernelIdeal.PointValue
open Idealize.ShloMosaic.ValueIdx EdgeConv

variable (m : (ℓ : Loc nD τ sig) → Buf (Elt Ideal) ℓ) (ρ : Dev nD → PrngReg)

/-! ## The arguments, as the specification takes them -/

abbrev xArr (c : Dev nD) : (⟨2, ![2048, 3]⟩ : Shape).Idx → EReal := m ((c : Thread nD τ).loc main_arg0)
abbrev eiArr (c : Dev nD) : (⟨2, ![2, 4192256]⟩ : Shape).Idx → BitVec 32 := m ((c : Thread nD τ).loc main_arg1)
abbrev params (c : Dev nD) : Params :=
  ⟨m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7),
    m ((c : Thread nD τ).loc main_arg8), m ((c : Thread nD τ).loc main_arg9)⟩

/-! ## What point t stages, each at its literal type -/

abbrev eB (c : Dev nD) (t : Fin cfg0.N) : Vec Ideal S2x512 .i32 := iblk m c 0 t
abbrev xB (c : Dev nD) (t : Fin cfg0.N) : Vec Ideal S2048x3 .f32 := iblk m c 1 t
abbrev aB (c : Dev nD) (t : Fin cfg0.N) : Vec Ideal S3x32 .f32 := iblk m c 2 t
abbrev bB (c : Dev nD) (t : Fin cfg0.N) : Vec Ideal S3x32 .f32 := iblk m c 3 t
abbrev b1B (c : Dev nD) (t : Fin cfg0.N) : Vec Ideal S32 .f32 := iblk m c 4 t
abbrev w2B (c : Dev nD) (t : Fin cfg0.N) : Vec Ideal S32x32 .f32 := iblk m c 5 t
abbrev b2B (c : Dev nD) (t : Fin cfg0.N) : Vec Ideal S32 .f32 := iblk m c 6 t
abbrev w3B (c : Dev nD) (t : Fin cfg0.N) : Vec Ideal S32x32 .f32 := iblk m c 7 t
abbrev b3B (c : Dev nD) (t : Fin cfg0.N) : Vec Ideal S32 .f32 := iblk m c 8 t
abbrev w4B (c : Dev nD) (t : Fin cfg0.N) : Vec Ideal S32x3 .f32 := iblk m c 9 t
abbrev b4B (c : Dev nD) (t : Fin cfg0.N) : Vec Ideal S3 .f32 := iblk m c 10 t

/-! ## One point's addends -/

theorem lt_grid (t : Fin cfg0.N) : t.val < 8188 := lt_of_lt_of_eq t.isLt (show cfg0.N = 8188 from N_0)

/-- Point t's edge block is the edge array at the block's edges. -/
theorem edges_at (c : Dev nD) (t : Fin cfg0.N) (a : Fin 2) (r : Fin 512) :
    eB m c t (ix2 a r) = eiArr m c (ix2 a (edgeAt ⟨t.val, lt_grid t⟩ r)) :=
  Blocks.edges_block m c t a r

/-- POINT t ADDS ITS BLOCK'S ADDEND to the message sums. -/
theorem point_sums (c : Dev nD) (hR : ∀ (a : Fin 2) (e : Fin 4192256), (eiArr m c (ix2 a e)).toNat < 2048) (t : Fin cfg0.N) (acc : Vec Ideal S2048x3 .f32) (i : S2048x3.Idx) :
    addSums (eB m c t) (xB m c t) (aB m c t) (bB m c t) (b1B m c t) (w2B m c t) (b2B m c t) (w3B m c t) (b3B m c t) (w4B m c t) (b4B m c t) acc i = acc i + blockSum (params m c) (xArr m c) (eiArr m c) t.val (i 0) (i 1) := by
  obtain ⟨p, d, rfl⟩ : ∃ (p : Fin 2048) (d : Fin 3), i = ix2 p d := ⟨i 0, i 1, eq_ix2 i⟩
  refine (addSums_apply (params m c) (eB m c t) (xB m c t) (aB m c t) (bB m c t) (b1B m c t) (w2B m c t) (b2B m c t) (w3B m c t) (b3B m c t) (w4B m c t) (b4B m c t) acc
    (fun d k => Blocks.w1a_block m c t d k) (fun d k => Blocks.w1b_block m c t d k) (Blocks.b1_block m c t) (Blocks.w2_block m c t)
    (Blocks.b2_block m c t) (Blocks.w3_block m c t) (Blocks.b3_block m c t) (Blocks.w4_block m c t) (Blocks.b4_block m c t)
    (fun a r => by rw [edges_at]; exact hR a _) p d).trans ?_
  refine congrArg (acc (ix2 p d) + ·) ?_
  unfold blockSum
  rw [dif_pos (lt_grid t)]
  refine Finset.sum_congr rfl fun r _ => ?_
  rw [edges_at m c t 1 r, edges_at m c t 0 r, show xB m c t = xArr m c from Blocks.x_block m c t]
  rfl

/-- POINT t ADDS ITS BLOCK'S ADDEND to the counts. -/
theorem point_count (c : Dev nD) (t : Fin cfg0.N) (acc : Vec Ideal S2048x1 .f32) (i : S2048x1.Idx) :
    addCount (eB m c t) acc i = acc i + blockCount (eiArr m c) t.val (i 0) := by
  obtain ⟨p, z, rfl⟩ : ∃ (p : Fin 2048) (z : Fin 1), i = ix2 p z := ⟨i 0, i 1, eq_ix2 i⟩
  obtain rfl : z = 0 := Subsingleton.elim _ _
  refine (addCount_apply (eB m c t) acc p).trans ?_
  refine congrArg (acc (ix2 p (0 : Fin 1)) + ·) ?_
  unfold blockCount
  rw [dif_pos (lt_grid t)]
  refine Finset.sum_congr rfl fun r _ => ?_
  rw [edges_at m c t 1 r]

/-! ## The three forms of the body, at a point -/

theorem first_sums (c : Dev nD) (hR : ∀ (a : Fin 2) (e : Fin 4192256), (eiArr m c (ix2 a e)).toNat < 2048) (t : Fin cfg0.N) (hc0 : cond0_0 (grid0.coords t)) (hc1 : ¬cond0_1 (grid0.coords t)) (i : S2048x3.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) i = 0 + blockSum (params m c) (xArr m c) (eiArr m c) t.val (i 0) (i 1) := by
  refine (congrFun (sums_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t)) i).trans ?_
  refine (point_sums m c hR t (k0_pay2 (F := Ideal)) i).trans ?_
  rw [reset_sum_apply]

theorem mid_sums (c : Dev nD) (hR : ∀ (a : Fin 2) (e : Fin 4192256), (eiArr m c (ix2 a e)).toNat < 2048) (t : Fin cfg0.N) (hc0 : ¬cond0_0 (grid0.coords t)) (hc1 : ¬cond0_1 (grid0.coords t))
    (xs0 : Vec Ideal S2048x3 .f32) (xs1 : Vec Ideal S2048x1 .f32) (i : S2048x3.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1 i = xs0 i + blockSum (params m c) (xArr m c) (eiArr m c) t.val (i 0) (i 1) := by
  refine (congrFun (sums_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1) i).trans ?_
  exact point_sums m c hR t xs0 i

theorem last_sums (c : Dev nD) (hR : ∀ (a : Fin 2) (e : Fin 4192256), (eiArr m c (ix2 a e)).toNat < 2048) (t : Fin cfg0.N) (hc0 : ¬cond0_0 (grid0.coords t)) (hc1 : cond0_1 (grid0.coords t))
    (xs0 : Vec Ideal S2048x3 .f32) (xs1 : Vec Ideal S2048x1 .f32) (i : S2048x3.Idx) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1 i = xs0 i + blockSum (params m c) (xArr m c) (eiArr m c) t.val (i 0) (i 1) := by
  refine (congrFun (sums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1) i).trans ?_
  exact point_sums m c hR t xs0 i

theorem first_count (c : Dev nD) (t : Fin cfg0.N) (hc0 : cond0_0 (grid0.coords t)) (hc1 : ¬cond0_1 (grid0.coords t)) (i : S2048x1.Idx) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) i = 0 + blockCount (eiArr m c) t.val (i 0) := by
  refine (congrFun (count_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t)) i).trans ?_
  refine (point_count m c t (k0_pay3 (F := Ideal)) i).trans ?_
  rw [reset_count_apply]

theorem mid_count (c : Dev nD) (t : Fin cfg0.N) (hc0 : ¬cond0_0 (grid0.coords t)) (hc1 : ¬cond0_1 (grid0.coords t))
    (xs0 : Vec Ideal S2048x3 .f32) (xs1 : Vec Ideal S2048x1 .f32) (i : S2048x1.Idx) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1 i = xs1 i + blockCount (eiArr m c) t.val (i 0) := by
  refine (congrFun (count_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1) i).trans ?_
  exact point_count m c t xs1 i

theorem last_count (c : Dev nD) (t : Fin cfg0.N) (hc0 : ¬cond0_0 (grid0.coords t)) (hc1 : cond0_1 (grid0.coords t))
    (xs0 : Vec Ideal S2048x3 .f32) (xs1 : Vec Ideal S2048x1 .f32) (i : S2048x1.Idx) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1 i = xs1 i + blockCount (eiArr m c) t.val (i 0) := by
  refine (congrFun (count_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 (eB m c t) (xB m c t) (aB m c t) (bB m c t) (b1B m c t) (w2B m c t) (b2B m c t) (w3B m c t) (b3B m c t) (w4B m c t) (b4B m c t) xs0 xs1) i).trans ?_
  exact point_count m c t xs1 i

/-! ## The accumulators after point n -/

/-- After point n the first accumulator holds the addends of points 0 .. n. -/
theorem sums_after (c : Dev nD) (hR : ∀ (a : Fin 2) (e : Fin 4192256), (eiArr m c (ix2 a e)).toNat < 2048) (n : ℕ) (hn : n < cfg0.N) (i : S2048x3.Idx) :
    (outsAt0 m c n hn).2.1 i = 0 + ∑ s ∈ Finset.range (n + 1), blockSum (params m c) (xArr m c) (eiArr m c) s (i 0) (i 1) := by
  have hN : cfg0.N = 8188 := N_0
  rw [Value.soutsAt0_0_sweep m c n hn]
  have key := Pipeline.accAt_add_apply (N := cfg0.N)
    (fun n h => Value.scAt0_0 m c n h (VS0_0.read (Elt Ideal) VS0_0.junk)) (Value.scAt0_0 m c)
    (fun _ => (0 : EReal)) (fun s (j : S2048x3.Idx) => blockSum (params m c) (xArr m c) (eiArr m c) s (j 0) (j 1)) 0 8187
    (fun h j => by
      unfold Value.scAt0_0
      rw [dif_pos (Nat.zero_mod 8188), dif_neg (by decide)]
      exact first_sums m c hR ⟨0, h⟩ _ _ j)
    (fun k h acc j h1 h2 => by
      unfold Value.scAt0_0
      by_cases hl : k % 8188 = 8187
      · rw [dif_neg (by omega), dif_pos hl]
        exact last_sums m c hR ⟨k, h⟩ _ _ acc _ j
      · rw [dif_neg (by omega), dif_neg hl]
        exact mid_sums m c hR ⟨k, h⟩ _ _ acc _ j)
    n (by omega) (by omega) i
  simpa only [Nat.zero_add] using key

/-- After point n the second accumulator holds the counting addends of points 0 .. n. -/
theorem count_after (c : Dev nD) (n : ℕ) (hn : n < cfg0.N) (i : S2048x1.Idx) :
    (outsAt0 m c n hn).2.2 i = 0 + ∑ s ∈ Finset.range (n + 1), blockCount (eiArr m c) s (i 0) := by
  have hN : cfg0.N = 8188 := N_0
  rw [Value.soutsAt0_1_sweep m c n hn]
  have key := Pipeline.accAt_add_apply (N := cfg0.N)
    (fun n h => Value.scAt0_1 m c n h (VS0_1.read (Elt Ideal) VS0_1.junk)) (Value.scAt0_1 m c)
    (fun _ => (0 : EReal)) (fun s (j : S2048x1.Idx) => blockCount (eiArr m c) s (j 0)) 0 8187
    (fun h j => by
      unfold Value.scAt0_1
      rw [dif_pos (Nat.zero_mod 8188), dif_neg (by decide)]
      exact first_count m c ⟨0, h⟩ _ _ j)
    (fun k h acc j h1 h2 => by
      unfold Value.scAt0_1
      by_cases hl : k % 8188 = 8187
      · rw [dif_neg (by omega), dif_pos hl]
        exact last_count m c ⟨k, h⟩ _ _ _ acc j
      · rw [dif_neg (by omega), dif_neg hl]
        exact mid_count m c ⟨k, h⟩ _ _ _ acc j)
    n (by omega) (by omega) i
  simpa only [Nat.zero_add] using key

/-! ## The last point's output -/

/-- The last point. -/
abbrev tLast : Fin cfg0.N := ⟨8187, by rw [show cfg0.N = 8188 from N_0]; decide⟩

/-- What the last point leaves in the output's staging buffer is the quotient of the accumulators it has just updated. -/
theorem out_quot (c : Dev nD) :
    (outsAt0 m c 8187 tLast.isLt).1 = k0_pay1 (F := Ideal) (outsAt0 m c 8187 tLast.isLt).2.1 (outsAt0 m c 8187 tLast.isLt).2.2 := by
  have e := outsAt0_C m c tLast (by decide) (by decide)
  rw [show outsAt0 m c 8187 tLast.isLt = outsAt0 m c tLast.val tLast.isLt from rfl, e]
  dsimp only
  rw [out_last, sums_last, count_last]

/-- THE OUTPUT: the mean message. -/
theorem out_eq_G (c : Dev nD) (hR : ∀ (a : Fin 2) (e : Fin 4192256), (eiArr m c (ix2 a e)).toNat < 2048) : (outsAt0 m c 8187 tLast.isLt).1 = G (params m c) (xArr m c) (eiArr m c) := by
  funext i
  obtain ⟨p, d, rfl⟩ : ∃ (p : Fin 2048) (d : Fin 3), i = ix2 p d := ⟨i 0, i 1, eq_ix2 i⟩
  rw [out_quot, mean_apply, sums_after m c hR 8187 tLast.isLt (ix2 p d), count_after m c 8187 tLast.isLt (ix2 p (0 : Fin 1))]
  rw [zero_add, zero_add]
  show Ideal.div (∑ s ∈ Finset.range 8188, blockSum (params m c) (xArr m c) (eiArr m c) s p d) (max (∑ s ∈ Finset.range 8188, blockCount (eiArr m c) s p) oneF) = _
  rw [sum_blockSum (params m c) (xArr m c) (eiArr m c) hR p d, sum_blockCount (eiArr m c) hR p]
  rfl

/-! ## From the one block to the array -/

theorem flushed_eq (c : Dev nD) (hR : ∀ (a : Fin 2) (e : Fin 4192256), (eiArr m c (ix2 a e)).toNat < 2048) (t : Fin cfg0.N) (hf : (cfg0.win 11).flush t = true) :
    (dats m 0 c).flushed 11 t = ((cfg0.win 11).blk t).view.read (Elt Ideal) (G (params m c) (xArr m c) (eiArr m c)) := by
  have hN : cfg0.N = 8188 := N_0
  have h1 : t.val % 8188 = 8187 := (flush0_11 t).mp hf
  obtain rfl : t = tLast := Fin.ext (by have := t.isLt; show t.val = 8187; omega)
  show (cfg0.win 11).cut (grid0.coords tLast) ((dats m 0 c).after 11 tLast) = _
  rw [after0_11, show (outsAt0 m c tLast.val tLast.isLt).1 = G (params m c) (xArr m c) (eiArr m c) from out_eq_G m c hR]
  have hz' : (fun a => win0_11.index tLast a * main_v2.ty.shape.size a) = fun _ => 0 := funext fun a => by fin_cases a <;> decide
  exact (Memref.read_access_unit_zero (Elt Ideal) main_v2 hz' (fun a => by rw [congrFun hz' a]; simp) (G (params m c) (xArr m c) (eiArr m c))).symm

/-- The result array after the run. -/
theorem final (c : Dev nD) (hR : ∀ (a : Fin 2) (e : Fin 4192256), (eiArr m c (ix2 a e)).toNat < 2048) : (dats m 0 c).arrAt 11 cfg0.N = G (params m c) (xArr m c) (eiArr m c) :=
  (dats m 0 c).arrAt_eq_of_cover 11 (G (params m c) (xArr m c) (eiArr m c)) (flushed_eq m c hR) fun i =>
    ⟨tLast, (flush0_11 tLast).mpr rfl, by
      show i ∈ ((View.whole main_v2).slice (win0_11.rect tLast)).set
      rw [View.set_slice_whole, Rect.mem_set_unit]
      intro a
      have h0 : (i 0 : Nat) < 2048 := (i 0).isLt
      have h1 : (i 1 : Nat) < 3 := (i 1).isLt
      match a with
      | ⟨0, _⟩ =>
        show win0_11.index tLast 0 * win0_11.size 0 ≤ (i 0 : Nat) ∧ (i 0 : Nat) < win0_11.index tLast 0 * win0_11.size 0 + win0_11.xsize (grid0.coords tLast) 0
        rw [show win0_11.index tLast 0 * win0_11.size 0 = 0 from by decide +kernel, show win0_11.xsize (grid0.coords tLast) 0 = 2048 from by decide +kernel]; omega
      | ⟨1, _⟩ =>
        show win0_11.index tLast 1 * win0_11.size 1 ≤ (i 1 : Nat) ∧ (i 1 : Nat) < win0_11.index tLast 1 * win0_11.size 1 + win0_11.xsize (grid0.coords tLast) 1
        rw [show win0_11.index tLast 1 * win0_11.size 1 = 0 from by decide +kernel, show win0_11.xsize (grid0.coords tLast) 1 = 3 from by decide +kernel]; omega⟩

/-- THE KERNEL'S RUN, READ: the result array at the mean message of the argument arrays, the arguments unchanged. -/
theorem run (hR : ∀ (c : Dev nD) (a : Fin 2) (e : Fin 4192256), (eiArr m c (ix2 a e)).toNat < 2048) :
    θ_run defs (onTc (τ := τ) (main (F := Ideal))) ⟨m, fun _ => 0, ρ⟩ fun r => ∀ c : Dev nD,
      r.2.mem ((c : Thread nD τ).loc main_v2) = G (params m c) (xArr m c) (eiArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c (hR c)), (h c).2⟩) (Value.run_blocks m ρ)

end Cert.KernelIdeal.KValue

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherRows.lean ====
/-
  THE HOST'S GATHER OF WHOLE ROWS READ AT AN INDEX.

  What x[idx] of a matrix x : [P, C] at a column idx : [N, 1] of row numbers lowers to: a gather with offset axes [1],
  collapsed slice axes [0], no batching axes, start index map [0], the index vector on axis 1 and slices of one row
  (slice sizes [1, C]). Result element (n, ch) is x at row idx[n, 0] — read signed and clamped into [0, P - 1], as
  the gather clamps every start index — and column ch (gather_rows_apply).

  The operand index of a gather is, on each operand axis, the clamped start plus the batching coordinate plus the
  offset coordinate. On axis 0 (collapsed, named by the start index map) only the start is there; on axis 1 (kept, not
  named) only the offset coordinate, which is the result index's coordinate on the one offset axis. The start index is
  read at the start-indices index [n, 0] (siIdx_rows): the result's one batch axis carries n, and the index vector's
  axis has extent one.

  The extents P, C, N and the index width w are variables; the dimension numbers are known only through the equations
  on their lists.
-/
import Idealize.ShloMosaic.PureOps.ShapeOps
import Idealize.ShloMosaic.Lib.ValueIdx
import proofs.«413416_j73040213836197_1_alg».proof.Proof.LibScatterSum

namespace Idealize.ShloMosaic.GatherRows

open Idealize.ShloMosaic Idealize.ShloMosaic.ValueIdx Idealize.ShloMosaic.ScatterSum

section Rows
variable {α : Type} {P C N w : Nat}

/-- Result index (n, ch) reads its start index at [n, 0]. -/
theorem siIdx_rows (d : GatherDims (⟨2, ![P, C]⟩ : Shape) (⟨2, ![N, 1]⟩ : Shape) (⟨2, ![N, C]⟩ : Shape))
    (hod : d.offsetDims = [1]) (hiv : d.indexVectorDim = 1) (n : Fin N) (ch : Fin C)
    (c : Fin d.startIndexMap.length) : d.siIdx (ix2 n ch) c = ix2 n (0 : Fin 1) := by
  have hbd : d.batchDims = [0] := by
    show Shape.kept _ d.offsetDims = [0]
    rw [hod]; rfl
  funext b
  refine Fin.ext ?_
  match b with
  | ⟨0, hb⟩ =>
    unfold GatherDims.siIdx
    rw [dif_neg (by rw [hiv]; exact Nat.zero_ne_one)]
    unfold GatherDims.siCoord
    exact congrArg (fun e => (ix2 n ch e).val) (getElem_of_eq_singleton hbd _ _)
  | ⟨1, hb⟩ =>
    have h1 : (d.siIdx (ix2 n ch) c ⟨1, hb⟩).val < 1 := (d.siIdx (ix2 n ch) c ⟨1, hb⟩).isLt
    show (d.siIdx (ix2 n ch) c ⟨1, hb⟩).val = 0
    omega

/-- THE GATHER READ AT (n, ch): the operand at the row idx[n, 0] names, read signed and clamped into [0, P - 1], and
    column ch. -/
theorem gather_rows_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  have h0mem : (0 : Fin 2) ∈ d.startIndexMap := by rw [hsm]; exact List.mem_singleton.2 rfl
  have h1nmem : (1 : Fin 2) ∉ d.startIndexMap := by
    rw [hsm]; exact fun h => h10 (List.mem_singleton.1 h)
  have hnb : ∀ a : Fin 2, a ∉ d.operandBatchingDims := by
    intro a; rw [hob]; exact List.not_mem_nil
  have h0k : (0 : Fin 2) ∉ d.sKept := fun h =>
    ((d.mem_sKept _).1 h).1 (by rw [hcd]; exact List.mem_singleton.2 rfl)
  have h1k : (1 : Fin 2) ∈ d.sKept :=
    (d.mem_sKept _).2 ⟨by rw [hcd]; exact fun h => h10 (List.mem_singleton.1 h), hnb 1⟩
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    unfold GatherDims.start
    rw [dif_pos h0mem, siIdx_rows d hod hiv n ch, hss]
    rfl
  | ⟨1, _⟩ =>
    show d.start (ix2 n ch) idx 1 + d.batchCoord (ix2 n ch) 1 + d.offCoord (ix2 n ch) 1 = ch.val
    rw [d.batchCoord_eq_zero _ _ (hnb 1)]
    unfold GatherDims.start GatherDims.offCoord
    rw [dif_neg h1nmem, dif_pos h1k]
    show 0 + 0 + ((ix2 n ch) (d.offsetDims[d.sKept.idxOf 1]'_)).val = ch.val
    simp only [Nat.zero_add]
    exact congrArg (fun e => (ix2 n ch e).val) (getElem_of_eq_singleton hod _ _)

end Rows

end Idealize.ShloMosaic.GatherRows
-- ==== Proof.RefValue.lean ====
/-
  THE REFERENCE'S RESULT IS THE EDGE CONVOLUTION G.

  The reference program computes, operation by operation: the source and destination rows of the edge array; each
  row's words normalised for negative values (a word below 2048 is not negative, so the normalisation is the identity
  there); the features of the destination and of the source node of every edge, gathered by row number (a word below
  2048 names its own row, and the gather's clamp into [0, 2047] does nothing to it); their difference; the two joined
  into six columns; four dense layers, the first three rectified; the messages scattered additively to their
  destination rows and, beside them, ones scattered to count them; the quotient of the sums by max(count, 1).

  Read at an index, each of these is the specification's term: the six-column product splits into the two
  three-column products of the first layer (a sum of six terms is the first three plus the last three); the scatter at
  node n is the zero it starts from plus the sum over the edges whose destination word, read signed, is n, and under
  the hypothesis that every word is below 2048 those are the edges whose destination node is n.

  The only hypothesis on the inputs is that every word of the edge array is below 2048; nothing is asked of the
  floats.
-/
import proofs.«413416_j73040213836197_1_alg».proof.Proof.Gen.ReferenceIdeal.Read
import proofs.«413416_j73040213836197_1_alg».proof.Proof.EdgeConvSpec
import proofs.«413416_j73040213836197_1_alg».proof.Proof.LibScatterSum
import proofs.«413416_j73040213836197_1_alg».proof.Proof.LibGatherRows
import Idealize.ShloMosaic.Lib.ValueIdx
import Idealize.ShloMosaic.Lib.Pipeline.Value
import Idealize.ShloMosaic.PureOps.Ideal.Laws
import Mathlib.Algebra.BigOperators.Group.Finset.Basic

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Words below 2048 -/

/-- A word below 2048 reads the same signed and unsigned. -/
theorem toInt_of_lt {v : BitVec 32} (h : v.toNat < 2048) : v.toInt = (v.toNat : Int) := by
  have e := BitVec.toInt_eq_toNat_cond v
  omega

/-- A select on "the word is negative" takes its second branch at a word below 2048. -/
theorem select_slt_zero {α : Type} {v : BitVec 32} (h : v.toNat < 2048) (a b : α) :
    Scalar.select (IntOp.cmpi .slt v 0#32) a b = b := by
  have hlt : v.slt 0#32 = false := by
    simp only [BitVec.slt, BitVec.toInt_zero, decide_eq_false_iff_not, Int.not_lt]
    rw [toInt_of_lt h]
    omega
  show (if BitVec.ofBool (v.slt 0#32) = 1 then a else b) = b
  rw [hlt]
  rfl

/-- The gather's clamp of a word below 2048 is the number of the node the word names. -/
theorem clamp_eq_node {v : BitVec 32} (h : v.toNat < 2048) :
    min v.toInt.toNat (2048 - 1) = (EdgeConv.node v).val := by
  rw [EdgeConv.node_val_of_lt h, toInt_of_lt h]
  omega

/-- A word below 2048, read signed, is the number of node n exactly when it names n. -/
theorem toInt_eq_iff_node {v : BitVec 32} (h : v.toNat < 2048) (n : Fin 2048) :
    v.toInt = (n.val : Int) ↔ EdgeConv.node v = n := by
  rw [toInt_of_lt h]
  constructor
  · intro hv
    refine Fin.ext ?_
    rw [EdgeConv.node_val_of_lt h]
    omega
  · intro hn
    rw [← hn, EdgeConv.node_val_of_lt h]

/-! ## The host's accumulating scatter at the ideal instance, read at an index

Stated at variable extents: the host's scatter is the ideal instance's by definition, and that instance's scatter read
at an index is the operand there plus the sum over the updates whose start index is the index. -/

section HostScatter
variable {P C N w : Nat} {φ : FTy}

/-- Rows [N, C] scattered into [P, C] by a column of row numbers. -/
theorem hostScatterAdd_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : FVec Ideal (⟨2, ![P, C]⟩ : Shape) φ) (idx : IVec (⟨2, ![N, 1]⟩ : Shape) w)
    (upd : FVec Ideal (⟨2, ![N, C]⟩ : Shape) φ) (p : Fin P) (ch : Fin C) :
    Host.scatterAdd d x idx upd (ix2 p ch)
      = x (ix2 p ch)
        + ∑ n ∈ Finset.univ.filter (fun n : Fin N => (idx (ix2 n (0 : Fin 1))).toInt = (p.val : Int)),
            upd (ix2 n ch) :=
  ScatterSum.scatterAdd_rows_apply d huw hiw hsd hiv x idx upd p ch

/-- Elements [N] scattered into [P] by a column of positions. -/
theorem hostScatterAdd_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : FVec Ideal (⟨1, ![P]⟩ : Shape) φ) (idx : IVec (⟨2, ![N, 1]⟩ : Shape) w)
    (upd : FVec Ideal (⟨1, ![N]⟩ : Shape) φ) (p : Fin P) :
    Host.scatterAdd d x idx upd (ix1 p)
      = x (ix1 p)
        + ∑ n ∈ Finset.univ.filter (fun n : Fin N => (idx (ix2 n (0 : Fin 1))).toInt = (p.val : Int)),
            upd (ix1 n) :=
  ScatterSum.scatterAdd_flat_apply d huw hiw hsd hiv x idx upd p

end HostScatter

/-! ## The arguments -/

/-- The perceptron's weights and biases, as the specification takes them. -/
abbrev params (x2 : (⟨S6x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x32, .f32⟩ : BufTy).Contents (Elt Ideal)) (x7 : (⟨S32, .f32⟩ : BufTy).Contents (Elt Ideal))
    (x8 : (⟨S32x3, .f32⟩ : BufTy).Contents (Elt Ideal)) (x9 : (⟨S3, .f32⟩ : BufTy).Contents (Elt Ideal)) : EdgeConv.Params :=
  ⟨x2, x3, x4, x5, x6, x7, x8, x9⟩

section Args
variable (x0 : (⟨S2048x3, .f32⟩ : BufTy).Contents (Elt Ideal)) (x1 : (⟨S2x4192256, .i32⟩ : BufTy).Contents (Elt Ideal))
  (x2 : (⟨S6x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x3, .f32⟩ : BufTy).Contents (Elt Ideal)) (x9 : (⟨S3, .f32⟩ : BufTy).Contents (Elt Ideal))

/-! ## The two rows of the edge array -/

/-- The source row. -/
theorem v1_apply (e : Fin 4192256) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- The destination row. -/
theorem v3_apply (e : Fin 4192256) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The column of destination words the messages are scattered by. -/
theorem v40_apply (e : Fin 4192256) : val_main_v40 (F := Ideal) x1 (ix2 e (0 : Fin 1)) = x1 (ix2 (1 : Fin 2) e) := by
  have hi : idx_main_v40 (ix2 e (0 : Fin 1)) = ix1 e := by
    funext a; match a with | ⟨0, _⟩ => rfl
  rw [val_main_v40_apply, hi, v3_apply]

/-- The column of destination words the ones are scattered by. -/
theorem v44_apply (e : Fin 4192256) : val_main_v44 (F := Ideal) x1 (ix2 e (0 : Fin 1)) = x1 (ix2 (1 : Fin 2) e) := by
  have hi : idx_main_v44 (ix2 e (0 : Fin 1)) = ix1 e := by
    funext a; match a with | ⟨0, _⟩ => rfl
  rw [val_main_v44_apply, hi, v3_apply]

/-! ## The six columns: the destination's features, then the difference -/

/-- Columns 0 to 2 are the first piece's. -/
theorem v19_left (e : Fin 4192256) (d : Fin 3) :
    val_main_v19 (F := Ideal) x0 x1 (ix2 e (⟨d.val, by omega⟩ : Fin 6)) = val_main_v10 (F := Ideal) x0 x1 (ix2 e d) := by
  unfold val_main_v19
  exact concatenate_pair_apply_left (t := S4192256x6) (s₁ := S4192256x3) (s₂ := S4192256x3) (1 : Fin 2)
    (val_main_v10 (F := Ideal) x0 x1) (val_main_v18 (F := Ideal) x0 x1) concatenates_S4192256x3_S4192256x3_S4192256x6_d1
    (ix2 e (⟨d.val, by omega⟩ : Fin 6)) rfl (ix2 e d) (fun b => match b with
      | ⟨0, _⟩ => rfl
      | ⟨1, _⟩ => rfl)

/-- Columns 3 to 5 are the second piece's, three to the left. -/
theorem v19_right (e : Fin 4192256) (d : Fin 3) :
    val_main_v19 (F := Ideal) x0 x1 (ix2 e (⟨d.val + 3, by omega⟩ : Fin 6)) = val_main_v18 (F := Ideal) x0 x1 (ix2 e d) := by
  unfold val_main_v19
  exact concatenate_pair_apply_right (t := S4192256x6) (s₁ := S4192256x3) (s₂ := S4192256x3) (1 : Fin 2)
    (val_main_v10 (F := Ideal) x0 x1) (val_main_v18 (F := Ideal) x0 x1) concatenates_S4192256x3_S4192256x3_S4192256x6_d1
    (ix2 e (⟨d.val + 3, by omega⟩ : Fin 6)) rfl rfl (ix2 e d) (fun b hb => match b, hb with
      | ⟨0, _⟩, _ => rfl
      | ⟨1, _⟩, hb => absurd rfl hb) rfl

/-! ## The second, third and fourth layers, each on the layer before -/

/-- The second layer at edge e is the specification's, on the first layer's row of e. -/
theorem v29_apply (e : Fin 4192256) (k : Fin 32) :
    val_main_v29 (F := Ideal) x0 x1 x2 x3 x4 x5 (ix2 e k)
      = EdgeConv.layer2 (params x2 x3 x4 x5 x6 x7 x8 x9) (fun j => val_main_v24 (F := Ideal) x0 x1 x2 x3 (ix2 e j)) k := by
  have hl : ∀ j : Fin 32, lidx_main_v25 (ix2 e k) j = ix2 e j := fun j => by
    funext a; match a with | ⟨0, _⟩ => rfl | ⟨1, _⟩ => rfl
  have hr : ∀ j : Fin 32, ridx_main_v25 (ix2 e k) j = ix2 j k := fun j => by
    funext a; match a with | ⟨0, _⟩ => rfl | ⟨1, _⟩ => rfl
  have hb : idx_main_v26 (idx_main_v27 (ix2 e k)) = ix1 k := by
    funext a; match a with | ⟨0, _⟩ => rfl
  rw [val_main_v29_apply, val_main_v28_apply, val_main_v25_apply, val_main_v27_apply, val_main_v26_apply, hb,
    val_main_call1_v0_apply, val_main_call1_cst_apply]
  simp only [hl, hr]
  rfl

/-- The third layer at edge e is the specification's, on the second layer's row of e. -/
theorem v34_apply (e : Fin 4192256) (k : Fin 32) :
    val_main_v34 (F := Ideal) x0 x1 x2 x3 x4 x5 x6 x7 (ix2 e k)
      = EdgeConv.layer3 (params x2 x3 x4 x5 x6 x7 x8 x9) (fun j => val_main_v29 (F := Ideal) x0 x1 x2 x3 x4 x5 (ix2 e j)) k := by
  have hl : ∀ j : Fin 32, lidx_main_v30 (ix2 e k) j = ix2 e j := fun j => by
    funext a; match a with | ⟨0, _⟩ => rfl | ⟨1, _⟩ => rfl
  have hr : ∀ j : Fin 32, ridx_main_v30 (ix2 e k) j = ix2 j k := fun j => by
    funext a; match a with | ⟨0, _⟩ => rfl | ⟨1, _⟩ => rfl
  have hb : idx_main_v31 (idx_main_v32 (ix2 e k)) = ix1 k := by
    funext a; match a with | ⟨0, _⟩ => rfl
  rw [val_main_v34_apply, val_main_v33_apply, val_main_v30_apply, val_main_v32_apply, val_main_v31_apply, hb,
    val_main_call2_v0_apply, val_main_call2_cst_apply]
  simp only [hl, hr]
  rfl

/-- The fourth layer at edge e is the specification's, on the third layer's row of e. -/
theorem v38_apply (e : Fin 4192256) (d : Fin 3) :
    val_main_v38 (F := Ideal) x0 x1 x2 x3 x4 x5 x6 x7 x8 x9 (ix2 e d)
      = EdgeConv.layer4 (params x2 x3 x4 x5 x6 x7 x8 x9) (fun j => val_main_v34 (F := Ideal) x0 x1 x2 x3 x4 x5 x6 x7 (ix2 e j)) d := by
  have hl : ∀ j : Fin 32, lidx_main_v35 (ix2 e d) j = ix2 e j := fun j => by
    funext a; match a with | ⟨0, _⟩ => rfl | ⟨1, _⟩ => rfl
  have hr : ∀ j : Fin 32, ridx_main_v35 (ix2 e d) j = ix2 j d := fun j => by
    funext a; match a with | ⟨0, _⟩ => rfl | ⟨1, _⟩ => rfl
  have hb : idx_main_v36 (idx_main_v37 (ix2 e d)) = ix1 d := by
    funext a; match a with | ⟨0, _⟩ => rfl
  rw [val_main_v38_apply, val_main_v35_apply, val_main_v37_apply, val_main_v36_apply, hb]
  simp only [hl, hr]
  rfl

/-! ## Under the hypothesis that every edge word is below 2048 -/

section Below
variable (hR : ∀ (a : Fin 2) (e : Fin 4192256), (x1 (ix2 a e)).toNat < 2048)
include hR

/-- The destination row normalised is the destination row. -/
theorem v8_apply (e : Fin 4192256) : val_main_v8 (F := Ideal) x1 (ix1 e) = x1 (ix2 (1 : Fin 2) e) := by
  rw [val_main_v8_apply, val_main_v5_apply, val_main_v4_apply, val_main_c_apply, v3_apply]
  exact select_slt_zero (hR 1 e) _ _

/-- The source row normalised is the source row. -/
theorem v15_apply (e : Fin 4192256) : val_main_v15 (F := Ideal) x1 (ix1 e) = x1 (ix2 (0 : Fin 2) e) := by
  rw [val_main_v15_apply, val_main_v12_apply, val_main_v11_apply, val_main_c_1_apply, v1_apply]
  exact select_slt_zero (hR 0 e) _ _

/-- The column of normalised destination words. -/
theorem v9_apply (e : Fin 4192256) : val_main_v9 (F := Ideal) x1 (ix2 e (0 : Fin 1)) = x1 (ix2 (1 : Fin 2) e) := by
  have hi : idx_main_v9 (ix2 e (0 : Fin 1)) = ix1 e := by
    funext a; match a with | ⟨0, _⟩ => rfl
  rw [val_main_v9_apply, hi, v8_apply x1 hR]

/-- The column of normalised source words. -/
theorem v16_apply (e : Fin 4192256) : val_main_v16 (F := Ideal) x1 (ix2 e (0 : Fin 1)) = x1 (ix2 (0 : Fin 2) e) := by
  have hi : idx_main_v16 (ix2 e (0 : Fin 1)) = ix1 e := by
    funext a; match a with | ⟨0, _⟩ => rfl
  rw [val_main_v16_apply, hi, v15_apply x1 hR]

/-- The destination's features. -/
theorem v10_apply (e : Fin 4192256) (d : Fin 3) :
    val_main_v10 (F := Ideal) x0 x1 (ix2 e d) = x0 (ix2 (EdgeConv.dstN x1 e) d) := by
  unfold val_main_v10
  rw [GatherRows.gather_rows_apply (by decide) gather_S2048x3_S4192256x1_S4192256x3_1_0_n_n_0_1_13 rfl rfl rfl rfl rfl rfl]
  congr 1
  refine congrArg (fun r : Fin 2048 => ix2 r d) (Fin.ext ?_)
  show min (val_main_v9 (F := Ideal) x1 (ix2 e (0 : Fin 1))).toInt.toNat (2048 - 1) = _
  rw [v9_apply x1 hR]
  exact clamp_eq_node (hR 1 e)

/-- The source's features. -/
theorem v17_apply (e : Fin 4192256) (d : Fin 3) :
    val_main_v17 (F := Ideal) x0 x1 (ix2 e d) = x0 (ix2 (EdgeConv.srcN x1 e) d) := by
  unfold val_main_v17
  rw [GatherRows.gather_rows_apply (by decide) gather_S2048x3_S4192256x1_S4192256x3_1_0_n_n_0_1_13 rfl rfl rfl rfl rfl rfl]
  congr 1
  refine congrArg (fun r : Fin 2048 => ix2 r d) (Fin.ext ?_)
  show min (val_main_v16 (F := Ideal) x1 (ix2 e (0 : Fin 1))).toInt.toNat (2048 - 1) = _
  rw [v16_apply x1 hR]
  exact clamp_eq_node (hR 0 e)

/-- The difference of the source's features and the destination's. -/
theorem v18_apply (e : Fin 4192256) (d : Fin 3) :
    val_main_v18 (F := Ideal) x0 x1 (ix2 e d)
      = x0 (ix2 (EdgeConv.srcN x1 e) d) - x0 (ix2 (EdgeConv.dstN x1 e) d) := by
  rw [val_main_v18_apply, v17_apply x0 x1 hR, v10_apply x0 x1 hR]
  rfl

/-- The first layer at edge e is the specification's, on the destination's features and the difference: the product
    with the six rows of the matrix is the product of the first three columns with rows 0 to 2 plus the product of the
    last three with rows 3 to 5. -/
theorem v24_apply (e : Fin 4192256) (k : Fin 32) :
    val_main_v24 (F := Ideal) x0 x1 x2 x3 (ix2 e k)
      = EdgeConv.layer1 (params x2 x3 x4 x5 x6 x7 x8 x9) (fun d => x0 (ix2 (EdgeConv.dstN x1 e) d))
          (fun d => x0 (ix2 (EdgeConv.srcN x1 e) d) - x0 (ix2 (EdgeConv.dstN x1 e) d)) k := by
  have hl : ∀ j : Fin 6, lidx_main_v20 (ix2 e k) j = ix2 e j := fun j => by
    funext a; match a with | ⟨0, _⟩ => rfl | ⟨1, _⟩ => rfl
  have hr : ∀ j : Fin 6, ridx_main_v20 (ix2 e k) j = ix2 j k := fun j => by
    funext a; match a with | ⟨0, _⟩ => rfl | ⟨1, _⟩ => rfl
  have hb : idx_main_v21 (idx_main_v22 (ix2 e k)) = ix1 k := by
    funext a; match a with | ⟨0, _⟩ => rfl
  rw [val_main_v24_apply, val_main_v23_apply, val_main_v20_apply, val_main_v22_apply, val_main_v21_apply, hb,
    val_main_call0_v0_apply, val_main_call0_cst_apply]
  simp only [hl, hr]
  rw [EdgeConv.sum_six_split]
  simp only [v19_left, v19_right, v10_apply x0 x1 hR, v18_apply x0 x1 hR]
  rfl

/-- The fourth layer's row of edge e is e's message. -/
theorem v38_eq_msg (e : Fin 4192256) (d : Fin 3) :
    val_main_v38 (F := Ideal) x0 x1 x2 x3 x4 x5 x6 x7 x8 x9 (ix2 e d) = EdgeConv.msg (params x2 x3 x4 x5 x6 x7 x8 x9) x0 x1 e d := by
  rw [v38_apply]
  simp only [v34_apply x0 x1 x2 x3 x4 x5 x6 x7 x8 x9, v29_apply x0 x1 x2 x3 x4 x5 x6 x7 x8 x9, v24_apply x0 x1 x2 x3 x4 x5 x6 x7 x8 x9 hR]
  rfl

/-! ## The two scatters, the count's floor and the quotient -/

/-- The messages scattered to their destinations: at node n, the sum of the messages of the edges into n. -/
theorem v41_apply (n : Fin 2048) (d : Fin 3) :
    val_main_v41 (F := Ideal) x0 x1 x2 x3 x4 x5 x6 x7 x8 x9 (ix2 n d) = EdgeConv.msgSum (params x2 x3 x4 x5 x6 x7 x8 x9) x0 x1 n d := by
  unfold val_main_v41
  rw [hostScatterAdd_rows scatter_S2048x3_S4192256x1_S4192256x3_1_0_0_1 rfl rfl rfl rfl, val_main_v39_apply, val_main_cst_apply, Ideal.ofBits_def, Ideal.ofBits_zero_f32, zero_add]
  unfold EdgeConv.msgSum
  refine Finset.sum_congr (Finset.filter_congr fun e _ => ?_) fun e _ => v38_eq_msg x0 x1 x2 x3 x4 x5 x6 x7 x8 x9 hR e d
  rw [v40_apply]
  exact toInt_eq_iff_node (hR 1 e) n

/-- The ones scattered to the destinations: at node n, the number of edges into n as a sum of ones. -/
theorem v45_apply (n : Fin 2048) : val_main_v45 (F := Ideal) x1 (ix1 n) = EdgeConv.msgCount x1 n := by
  unfold val_main_v45
  rw [hostScatterAdd_flat scatter_S2048_S4192256x1_S4192256_n_0_0_1 rfl rfl rfl rfl, val_main_v43_apply, val_main_cst_4_apply, Ideal.ofBits_def, Ideal.ofBits_zero_f32, zero_add]
  unfold EdgeConv.msgCount
  refine Finset.sum_congr (Finset.filter_congr fun e _ => ?_) fun e _ => ?_
  · rw [v44_apply]
    exact toInt_eq_iff_node (hR 1 e) n
  · rw [val_main_v42_apply, val_main_cst_3_apply]
    rfl

/-- The divisor: the count, or one where no edge arrives. -/
theorem v49_apply (n : Fin 2048) (d : Fin 3) :
    val_main_v49 (F := Ideal) x1 (ix2 n d) = max (EdgeConv.msgCount x1 n) EdgeConv.oneF := by
  have hi : idx_main_v48 (idx_main_v49 (ix2 n d)) = ix1 n := by
    funext a; match a with | ⟨0, _⟩ => rfl
  rw [val_main_v49_apply, val_main_v48_apply, hi, val_main_v47_apply, v45_apply x1 hR, val_main_v46_apply,
    val_main_cst_5_apply]
  rfl

end Below

end Args

/-- THE REFERENCE'S RESULT IS G: at node n and feature d, the sum of the messages into n over max(their number, 1). -/
theorem ref_eq_G (x0 : (⟨S2048x3, .f32⟩ : BufTy).Contents (Elt Ideal)) (x1 : (⟨S2x4192256, .i32⟩ : BufTy).Contents (Elt Ideal))
    (x2 : (⟨S6x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x32, .f32⟩ : BufTy).Contents (Elt Ideal)) (x7 : (⟨S32, .f32⟩ : BufTy).Contents (Elt Ideal))
    (x8 : (⟨S32x3, .f32⟩ : BufTy).Contents (Elt Ideal)) (x9 : (⟨S3, .f32⟩ : BufTy).Contents (Elt Ideal))
    (hR : ∀ (a : Fin 2) (e : Fin 4192256), (x1 (ix2 a e)).toNat < 2048) :
    Cert.ReferenceIdeal.Read.val_main_v50 (F := Ideal) x0 x1 x2 x3 x4 x5 x6 x7 x8 x9 = EdgeConv.G ⟨x2, x3, x4, x5, x6, x7, x8, x9⟩ x0 x1 := by
  funext i
  obtain ⟨n, d, rfl⟩ : ∃ (n : Fin 2048) (d : Fin 3), i = ix2 n d := ⟨i 0, i 1, eq_ix2 i⟩
  rw [val_main_v50_apply, v41_apply x0 x1 x2 x3 x4 x5 x6 x7 x8 x9 hR, v49_apply x1 hR]
  rfl

end Cert.ReferenceIdeal.RefValue

end
-- ==== Proof.PreRange.lean ====
/-
  The precondition's last conjunct, read back at one edge word.

  The precondition `finite_inputs` is a conjunction of ten bits.  Nine say that a float input is finite at every
  entry; the last says of the int32[2, 4192256] edge array that every word w satisfies 0 ≤ w and w < 2048, both
  compared signed, folded by `and` over all indices.  From "the conjunction is 1" follows "the last bit is 1"; a
  fold by `and` from 1 that comes out 1 met a 1 at every index; a 1 at index (a, e) says 0 ≤ w and w < 2048 of the
  word w there, read as signed integers; and a word whose signed value is nonnegative has its top bit clear, so its
  signed and unsigned values agree and the unsigned value is below 2048 too.  Nothing is evaluated over the index
  set: every step is at one, arbitrary, index.
-/
import proofs.«413416_j73040213836197_1_alg».proof.Pre_finite_inputs
import Idealize.ShloMosaic.Lib.StableHlo.Predicate
import Idealize.ShloMosaic.Lib.ReduceAll
import Idealize.ShloMosaic.Lib.ValueIdx

namespace Cert.Pre_finite_inputs.Range

open Cert.Pre_finite_inputs Idealize.ShloMosaic Idealize.ShloMosaic.ValueIdx

/-- The rank-0 shape has one index. -/
theorem subsingleton_scalar_idx : Subsingleton S_.Idx := ⟨fun a b => funext fun d => d.elim0⟩

/-- A 32-bit word in [0, 2048) as a signed integer is below 2048 as a natural number: a nonnegative signed value
    means the top bit is clear, and then the two readings agree. -/
theorem toNat_lt_of_signed_range (w : BitVec 32) (h0 : IntOp.cmpi .sge w 0#32 = 1#1)
    (h1 : IntOp.cmpi .slt w 2048#32 = 1#1) : w.toNat < 2048 := by
  rw [IntOp.cmpi_sge, show (0#32 : BitVec 32).toInt = 0 from by decide] at h0
  rw [IntOp.cmpi_slt, show (2048#32 : BitVec 32).toInt = 2048 from by decide] at h1
  have hlt : 2 * w.toNat < 2 ^ 32 := BitVec.toInt_pos_iff.1 h0
  rw [BitVec.toInt_eq_toNat_of_lt hlt] at h1
  omega

/-- Under the precondition every word of the edge array, read as a natural number, is below 2048. -/
theorem range_of_pre [Cert.Pre_finite_inputs.Facts] {F : FTy → Type} [FloatOps F]
    (a0 : FVec F S2048x3 .f32) (a1 : IVec S2x4192256 32) (a2 : FVec F S6x32 .f32) (a3 : FVec F S32 .f32)
    (a4 : FVec F S32x32 .f32) (a5 : FVec F S32 .f32) (a6 : FVec F S32x32 .f32) (a7 : FVec F S32 .f32)
    (a8 : FVec F S32x3 .f32) (a9 : FVec F S3 .f32)
    (h : Cert.Pre_finite_inputs.fn (F := F) a0 a1 a2 a3 a4 a5 a6 a7 a8 a9 = (fun _ => 1#1)) :
    ∀ (a : Fin 2) (e : Fin 4192256), (a1 (ix2 a e)).toNat < 2048 := by
  intro a e
  haveI := subsingleton_scalar_idx
  -- the conjunction at its one index
  have hc := congrFun h ix0
  unfold fn fn_part1 fn_part2 at hc
  dsimp only at hc
  -- its last conjunct: the fold by `and` over the edge array
  have hall := (IntOp.andi_eq_one.1 hc).2
  -- the folded bit at index (a, e)
  have hbit := Host.reduce_andi_all _ _ _ _ _ hall (ix2 a e)
  -- the two comparisons at that index
  obtain ⟨hge, hlt⟩ := IntOp.andi_eq_one.1 hbit
  -- a broadcast scalar reads the scalar everywhere
  have hge' : IntOp.cmpi .sge (a1 (ix2 a e)) 0#32 = 1#1 := hge
  have hlt' : IntOp.cmpi .slt (a1 (ix2 a e)) 2048#32 = 1#1 := hlt
  exact toNat_lt_of_signed_range _ hge' hlt'

end Cert.Pre_finite_inputs.Range
-- ==== Proof.lean ====
/-
  The certificate of the edge-convolution kernel against its jnp reference: the Pallas kernel that gathers node
  features with indicator matmuls, runs the message perceptron on blocks of 512 edges, accumulates indicator-weighted
  messages and counts over 8188 grid points and divides at the last one computes, over the extended reals, the same
  mean message as the reference's gather, dense layers and segment sums, for every edge array whose node ids are in
  range.

  The three frames: the two kernel programs by their generated frame runs, the reference by its generated run with the
  result dropped. The idealization rewrote nothing, so it is preserved trivially. The value claim: both results are the
  one function EdgeConv.G of the argument arrays (the kernel: the induction over the grid points of KernelValue; the
  reference: RefValue), and the only fact taken from the precondition is that every word of the edge array is below
  2048; no finiteness of a float input is used.
-/
import proofs.«413416_j73040213836197_1_alg».proof.Defs
import proofs.«413416_j73040213836197_1_alg».proof.Proof.Gen.Kernel
import proofs.«413416_j73040213836197_1_alg».proof.Proof.Gen.Kernel.Frame
import proofs.«413416_j73040213836197_1_alg».proof.Proof.Gen.KernelIdeal
import proofs.«413416_j73040213836197_1_alg».proof.Proof.Gen.KernelIdeal.Frame
import proofs.«413416_j73040213836197_1_alg».proof.Proof.Gen.KernelIdeal.Value
import proofs.«413416_j73040213836197_1_alg».proof.Proof.Gen.ReferenceIdeal
import proofs.«413416_j73040213836197_1_alg».proof.Proof.Gen.ReferenceIdeal.Run
import proofs.«413416_j73040213836197_1_alg».proof.Proof.Gen.ReferenceIdeal.Read
import proofs.«413416_j73040213836197_1_alg».proof.Proof.Gen.Pre_finite_inputs
import proofs.«413416_j73040213836197_1_alg».proof.Proof.KernelValue
import proofs.«413416_j73040213836197_1_alg».proof.Proof.RefValue
import proofs.«413416_j73040213836197_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the mean message of the argument arrays. -/
theorem algebraic : Cert.algebraic_KernelIdeal_ReferenceIdeal := by
  intro m ρ m' ρ' hpre hagree
  have hR : ∀ (c : Dev Cert.KernelIdeal.nD) (a : Fin 2) (e : Fin 4192256),
      (Cert.KernelIdeal.KValue.eiArr m c (ix2 a e)).toNat < 2048 :=
    fun c => Cert.Pre_finite_inputs.Range.range_of_pre _ _ _ _ _ _ _ _ _ _ (hpre c)
  refine ⟨fun c => EdgeConv.G (Cert.KernelIdeal.KValue.params m c) (Cert.KernelIdeal.KValue.xArr m c) (Cert.KernelIdeal.KValue.eiArr m c),
    Cert.KernelIdeal.KValue.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.ReferenceIdeal.RefValue.ref_eq_G _ _ _ _ _ _ _ _ _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
